-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x640000 : Shape := ⟨2, ![2, 640000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128 .f32) (main_arg6 : FVec F S128x16 .f32) (main_arg7 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x256 .f32) (main_arg1 : IVec S2x640000 32) (main_arg2 : FVec F S256x128 .f32) (main_arg3 : FVec F S128 .f32) (main_arg4 : FVec F S128x128 .f32) (main_arg5 : FVec F S128 .f32) (main_arg6 : FVec F S128x16 .f32) (main_arg7 : FVec F S16 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x256 : Shape := ⟨2, ![50000, 256]⟩
abbrev S2x640000 : Shape := ⟨2, ![2, 640000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S50000x128 : Shape := ⟨2, ![50000, 128]⟩
abbrev S5000x256 : Shape := ⟨2, ![5000, 256]⟩
abbrev S5000x128 : Shape := ⟨2, ![5000, 128]⟩
abbrev S690000x128 : Shape := ⟨2, ![690000, 128]⟩
abbrev S1x128 : Shape := ⟨2, ![1, 128]⟩
abbrev S50000x16 : Shape := ⟨2, ![50000, 16]⟩
abbrev S5000x16 : Shape := ⟨2, ![5000, 16]⟩
abbrev S690000x16 : Shape := ⟨2, ![690000, 16]⟩
abbrev S1x16 : Shape := ⟨2, ![1, 16]⟩

abbrev nBuf : Space → Nat
  | .hbm => 108
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S2x640000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S50000, .i32⟩
  | .hbm, ⟨9, _⟩ => ⟨S1x640000, .i32⟩
  | .hbm, ⟨10, _⟩ => ⟨S640000, .i32⟩
  | .hbm, ⟨11, _⟩ => ⟨S690000, .i32⟩
  | .hbm, ⟨12, _⟩ => ⟨S1x640000, .i32⟩
  | .hbm, ⟨13, _⟩ => ⟨S640000, .i32⟩
  | .hbm, ⟨14, _⟩ => ⟨S690000, .i32⟩
  | .hbm, ⟨15, _⟩ => ⟨S_, .f32⟩
  | .hbm, ⟨16, _⟩ => ⟨S690000, .f32⟩
  | .hbm, ⟨17, _⟩ => ⟨S_, .f32⟩
  | .hbm, ⟨18, _⟩ => ⟨S50000, .f32⟩
  | .hbm, ⟨19, _⟩ => ⟨S690000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S690000, .i32⟩
  | .hbm, ⟨34, _⟩ => ⟨S690000, .i1⟩
  | .hbm, ⟨35, _⟩ => ⟨S_, .i32⟩
  | .hbm, ⟨36, _⟩ => ⟨S690000, .i32⟩
  | .hbm, ⟨37, _⟩ => ⟨S690000, .i32⟩
  | .hbm, ⟨38, _⟩ => ⟨S690000, .i32⟩
  | .hbm, ⟨39, _⟩ => ⟨S690000x1, .i32⟩
  | .hbm, ⟨40, _⟩ => ⟨S690000, .f32⟩
  | .hbm, ⟨41, _⟩ => ⟨S_, .i32⟩
  | .hbm, ⟨42, _⟩ => ⟨S690000, .i32⟩
  | .hbm, ⟨43, _⟩ => ⟨S690000, .i1⟩
  | .hbm, ⟨44, _⟩ => ⟨S_, .i32⟩
  | .hbm, ⟨45, _⟩ => ⟨S690000, .i32⟩
  | .hbm, ⟨46, _⟩ => ⟨S690000, .i32⟩
  | .hbm, ⟨47, _⟩ => ⟨S690000, .i32⟩
  | .hbm, ⟨48, _⟩ => ⟨S690000x1, .i32⟩
  | .hbm, ⟨49, _⟩ => ⟨S690000, .f32⟩
  | .hbm, ⟨50, _⟩ => ⟨S690000, .f32⟩
  | .hbm, ⟨51, _⟩ => ⟨S50000x128, .f32⟩
  | .hbm, ⟨52, _⟩ => ⟨S_, .i32⟩
  | .hbm, ⟨53, _⟩ => ⟨S690000, .i32⟩
  | .hbm, ⟨54, _⟩ => ⟨S690000, .i1⟩
  | .hbm, ⟨55, _⟩ => ⟨S_, .i32⟩
  | .hbm, ⟨56, _⟩ => ⟨S690000, .i32⟩
  | .hbm, ⟨57, _⟩ => ⟨S690000, .i32⟩
  | .hbm, ⟨58, _⟩ => ⟨S690000, .i32⟩
  | .hbm, ⟨59, _⟩ => ⟨S690000x1, .i32⟩
  | .hbm, ⟨60, _⟩ => ⟨S690000x128, .f32⟩
  | .hbm, ⟨61, _⟩ => ⟨S690000x1, .f32⟩
  | .hbm, ⟨62, _⟩ => ⟨S690000x128, .f32⟩
  | .hbm, ⟨63, _⟩ => ⟨S690000x128, .f32⟩
  | .hbm, ⟨64, _⟩ => ⟨S_, .f32⟩
  | .hbm, ⟨65, _⟩ => ⟨S50000x128, .f32⟩
  | .hbm, ⟨66, _⟩ => ⟨S690000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S690000, .i32⟩
  | .hbm, ⟨73, _⟩ => ⟨S690000, .i1⟩
  | .hbm, ⟨74, _⟩ => ⟨S_, .i32⟩
  | .hbm, ⟨75, _⟩ => ⟨S690000, .i32⟩
  | .hbm, ⟨76, _⟩ => ⟨S690000, .i32⟩
  | .hbm, ⟨77, _⟩ => ⟨S690000, .i32⟩
  | .hbm, ⟨78, _⟩ => ⟨S690000x1, .i32⟩
  | .hbm, ⟨79, _⟩ => ⟨S690000x128, .f32⟩
  | .hbm, ⟨80, _⟩ => ⟨S690000x1, .f32⟩
  | .hbm, ⟨81, _⟩ => ⟨S690000x128, .f32⟩
  | .hbm, ⟨82, _⟩ => ⟨S690000x128, .f32⟩
  | .hbm, ⟨83, _⟩ => ⟨S_, .f32⟩
  | .hbm, ⟨84, _⟩ => ⟨S50000x128, .f32⟩
  | .hbm, ⟨85, _⟩ => ⟨S690000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x16, .f32⟩
  | .hbm, ⟨90, _⟩ => ⟨S_, .i32⟩
  | .hbm, ⟨91, _⟩ => ⟨S690000, .i32⟩
  | .hbm, ⟨92, _⟩ => ⟨S690000, .i1⟩
  | .hbm, ⟨93, _⟩ => ⟨S_, .i32⟩
  | .hbm, ⟨94, _⟩ => ⟨S690000, .i32⟩
  | .hbm, ⟨95, _⟩ => ⟨S690000, .i32⟩
  | .hbm, ⟨96, _⟩ => ⟨S690000, .i32⟩
  | .hbm, ⟨97, _⟩ => ⟨S690000x1, .i32⟩
  | .hbm, ⟨98, _⟩ => ⟨S690000x16, .f32⟩
  | .hbm, ⟨99, _⟩ => ⟨S690000x1, .f32⟩
  | .hbm, ⟨100, _⟩ => ⟨S690000x16, .f32⟩
  | .hbm, ⟨101, _⟩ => ⟨S690000x16, .f32⟩
  | .hbm, ⟨102, _⟩ => ⟨S_, .f32⟩
  | .hbm, ⟨103, _⟩ => ⟨S50000x16, .f32⟩
  | .hbm, ⟨104, _⟩ => ⟨S690000x1, .i32⟩
  | .hbm, ⟨105, _⟩ => ⟨S50000x16, .f32⟩
  | .hbm, ⟨106, _⟩ => ⟨S1x16, .f32⟩
  | .hbm, ⟨107, _⟩ => ⟨S50000x16, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x16, .f32⟩
  | .local _ .vmem, ⟨23, _⟩ => ⟨S5000x16, .f32⟩
  | .local _ .vmem, ⟨24, _⟩ => ⟨S5000x16, .f32⟩
  | .local _ .vmem, ⟨25, _⟩ => ⟨S5000x16, .f32⟩
  | .local _ .vmem, ⟨26, _⟩ => ⟨S5000x16, .f32⟩
  | .local _ .vmem, ⟨27, _⟩ => ⟨S1x16, .f32⟩
  | .local _ .vmem, ⟨28, _⟩ => ⟨S5000x16, .f32⟩
  | .local _ .vmem, ⟨29, _⟩ => ⟨S5000x16, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S690000x1_S690000x16_0_1 : S690000x1.BroadcastsInDim S690000x16 (![0, 1] : Fin 2 → Fin S690000x16.rank)
  bcast_S_S50000x16 : S_.BroadcastsInDim S50000x16 (![] : Fin 0 → Fin S50000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S5000x256_S256x128_S5000x128_1_0_0_1_n_n_wf : DotDims.WF S5000x256 S256x128 S5000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  gather_S50000x16_S690000x1_S690000x16_1_0_n_n_0_1_116_wf : GatherDims.WF S50000x16 S690000x1 S690000x16 [1] [0] [] [0] [] 1 ![1, 16]
  scatter_S50000x16_S690000x1_S690000x16_1_0_0_1_wf : ScatterDims.WF S50000x16 S690000x1 S690000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x16.size a ≤ S128x16.size a
  hwx4_1 : ∀ i : grid4.Coords, EltTy.bits .f32 = 32 ∨ (Rect.block (s := S128x16) S128x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x16.size a ≤ S50000x16.size a
  hwx4_2 : ∀ i : grid4.Coords, EltTy.bits .f32 = 32 ∨ (Rect.block (s := S50000x16) S5000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S50000x16.size a
  hwx5_0 : ∀ i : grid5.Coords, EltTy.bits .f32 = 32 ∨ (Rect.block (s := S50000x16) S5000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x16.size a ≤ S50000x16.size a
  hwx5_2 : ∀ i : grid5.Coords, EltTy.bits .f32 = 32 ∨ (Rect.block (s := S50000x16) S5000x16.size (cc5_transform_2 i) (hinb5_2 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S50000x16_S690000x1_S690000x16_1_0_n_n_0_1_116 : GatherDims S50000x16 S690000x1 S690000x16 where
  offsetDims := [1]
  collapsedSliceDims := [0]
  operandBatchingDims := []
  startIndicesBatchingDims := []
  startIndexMap := [0]
  indexVectorDim := 1
  sliceSizes := ![1, 16]
  wf := gather_S50000x16_S690000x1_S690000x16_1_0_n_n_0_1_116_wf
def scatter_S50000x16_S690000x1_S690000x16_1_0_0_1 : ScatterDims S50000x16 S690000x1 S690000x16 where
  updateWindowDims := [1]
  insertedWindowDims := [0]
  scatterDimsToOperandDims := [0]
  indexVectorDim := 1
  wf := scatter_S50000x16_S690000x1_S690000x16_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x640000 : Shape := ⟨2, ![2, 640000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S50000 : Shape := ⟨1, ![50000]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S50000x128 : Shape := ⟨2, ![50000, 128]⟩
abbrev S690000x128 : Shape := ⟨2, ![690000, 128]⟩
abbrev S1x128 : Shape := ⟨2, ![1, 128]⟩
abbrev S50000x16 : Shape := ⟨2, ![50000, 16]⟩
abbrev S690000x16 : Shape := ⟨2, ![690000, 16]⟩
abbrev S1x16 : Shape := ⟨2, ![1, 16]⟩

abbrev nBuf : Space → Nat
  | .hbm => 117
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x640000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S50000, .i32⟩
  | .hbm, ⟨9, _⟩ => ⟨S1x640000, .i32⟩
  | .hbm, ⟨10, _⟩ => ⟨S640000, .i32⟩
  | .hbm, ⟨11, _⟩ => ⟨S690000, .i32⟩
  | .hbm, ⟨12, _⟩ => ⟨S1x640000, .i32⟩
  | .hbm, ⟨13, _⟩ => ⟨S640000, .i32⟩
  | .hbm, ⟨14, _⟩ => ⟨S690000, .i32⟩
  | .hbm, ⟨15, _⟩ => ⟨S_, .f32⟩
  | .hbm, ⟨16, _⟩ => ⟨S690000, .f32⟩
  | .hbm, ⟨17, _⟩ => ⟨S_, .f32⟩
  | .hbm, ⟨18, _⟩ => ⟨S50000, .f32⟩
  | .hbm, ⟨19, _⟩ => ⟨S690000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S690000, .i32⟩
  | .hbm, ⟨34, _⟩ => ⟨S690000, .i1⟩
  | .hbm, ⟨35, _⟩ => ⟨S_, .i32⟩
  | .hbm, ⟨36, _⟩ => ⟨S690000, .i32⟩
  | .hbm, ⟨37, _⟩ => ⟨S690000, .i32⟩
  | .hbm, ⟨38, _⟩ => ⟨S690000, .i32⟩
  | .hbm, ⟨39, _⟩ => ⟨S690000x1, .i32⟩
  | .hbm, ⟨40, _⟩ => ⟨S690000, .f32⟩
  | .hbm, ⟨41, _⟩ => ⟨S_, .i32⟩
  | .hbm, ⟨42, _⟩ => ⟨S690000, .i32⟩
  | .hbm, ⟨43, _⟩ => ⟨S690000, .i1⟩
  | .hbm, ⟨44, _⟩ => ⟨S_, .i32⟩
  | .hbm, ⟨45, _⟩ => ⟨S690000, .i32⟩
  | .hbm, ⟨46, _⟩ => ⟨S690000, .i32⟩
  | .hbm, ⟨47, _⟩ => ⟨S690000, .i32⟩
  | .hbm, ⟨48, _⟩ => ⟨S690000x1, .i32⟩
  | .hbm, ⟨49, _⟩ => ⟨S690000, .f32⟩
  | .hbm, ⟨50, _⟩ => ⟨S690000, .f32⟩
  | .hbm, ⟨51, _⟩ => ⟨S50000x128, .f32⟩
  | .hbm, ⟨52, _⟩ => ⟨S_, .i32⟩
  | .hbm, ⟨53, _⟩ => ⟨S690000, .i32⟩
  | .hbm, ⟨54, _⟩ => ⟨S690000, .i1⟩
  | .hbm, ⟨55, _⟩ => ⟨S_, .i32⟩
  | .hbm, ⟨56, _⟩ => ⟨S690000, .i32⟩
  | .hbm, ⟨57, _⟩ => ⟨S690000, .i32⟩
  | .hbm, ⟨58, _⟩ => ⟨S690000, .i32⟩
  | .hbm, ⟨59, _⟩ => ⟨S690000x1, .i32⟩
  | .hbm, ⟨60, _⟩ => ⟨S690000x128, .f32⟩
  | .hbm, ⟨61, _⟩ => ⟨S690000x1, .f32⟩
  | .hbm, ⟨62, _⟩ => ⟨S690000x128, .f32⟩
  | .hbm, ⟨63, _⟩ => ⟨S690000x128, .f32⟩
  | .hbm, ⟨64, _⟩ => ⟨S_, .f32⟩
  | .hbm, ⟨65, _⟩ => ⟨S50000x128, .f32⟩
  | .hbm, ⟨66, _⟩ => ⟨S690000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S_, .i32⟩
  | .hbm, ⟨76, _⟩ => ⟨S690000, .i32⟩
  | .hbm, ⟨77, _⟩ => ⟨S690000, .i1⟩
  | .hbm, ⟨78, _⟩ => ⟨S_, .i32⟩
  | .hbm, ⟨79, _⟩ => ⟨S690000, .i32⟩
  | .hbm, ⟨80, _⟩ => ⟨S690000, .i32⟩
  | .hbm, ⟨81, _⟩ => ⟨S690000, .i32⟩
  | .hbm, ⟨82, _⟩ => ⟨S690000x1, .i32⟩
  | .hbm, ⟨83, _⟩ => ⟨S690000x128, .f32⟩
  | .hbm, ⟨84, _⟩ => ⟨S690000x1, .f32⟩
  | .hbm, ⟨85, _⟩ => ⟨S690000x128, .f32⟩
  | .hbm, ⟨86, _⟩ => ⟨S690000x128, .f32⟩
  | .hbm, ⟨87, _⟩ => ⟨S_, .f32⟩
  | .hbm, ⟨88, _⟩ => ⟨S50000x128, .f32⟩
  | .hbm, ⟨89, _⟩ => ⟨S690000x1, .i32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S50000x16, .f32⟩
  | .hbm, ⟨98, _⟩ => ⟨S_, .i32⟩
  | .hbm, ⟨99, _⟩ => ⟨S690000, .i32⟩
  | .hbm, ⟨100, _⟩ => ⟨S690000, .i1⟩
  | .hbm, ⟨101, _⟩ => ⟨S_, .i32⟩
  | .hbm, ⟨102, _⟩ => ⟨S690000, .i32⟩
  | .hbm, ⟨103, _⟩ => ⟨S690000, .i32⟩
  | .hbm, ⟨104, _⟩ => ⟨S690000, .i32⟩
  | .hbm, ⟨105, _⟩ => ⟨S690000x1, .i32⟩
  | .hbm, ⟨106, _⟩ => ⟨S690000x16, .f32⟩
  | .hbm, ⟨107, _⟩ => ⟨S690000x1, .f32⟩
  | .hbm, ⟨108, _⟩ => ⟨S690000x16, .f32⟩
  | .hbm, ⟨109, _⟩ => ⟨S690000x16, .f32⟩
  | .hbm, ⟨110, _⟩ => ⟨S_, .f32⟩
  | .hbm, ⟨111, _⟩ => ⟨S50000x16, .f32⟩
  | .hbm, ⟨112, _⟩ => ⟨S690000x1, .i32⟩
  | .hbm, ⟨113, _⟩ => ⟨S50000x16, .f32⟩
  | .hbm, ⟨114, _⟩ => ⟨S1x16, .f32⟩
  | .hbm, ⟨115, _⟩ => ⟨S50000x16, .f32⟩
  | .hbm, ⟨116, _⟩ => ⟨S50000x16, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S690000x1_S690000x16_0_1 : S690000x1.BroadcastsInDim S690000x16 (![0, 1] : Fin 2 → Fin S690000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x256_S256x128_S50000x128_1_0_0_1_n_n_wf : DotDims.WF S50000x256 S256x128 S50000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S50000x128_S128x128_S50000x128_1_0_0_1_n_n_wf : DotDims.WF S50000x128 S128x128 S50000x128 [1] [0] [0] [1] [] []
  dot_S50000x128_S128x16_S50000x16_1_0_0_1_n_n_wf : DotDims.WF S50000x128 S128x16 S50000x16 [1] [0] [0] [1] [] []
  gather_S50000x16_S690000x1_S690000x16_1_0_n_n_0_1_116_wf : GatherDims.WF S50000x16 S690000x1 S690000x16 [1] [0] [] [0] [] 1 ![1, 16]
  scatter_S50000x16_S690000x1_S690000x16_1_0_0_1_wf : ScatterDims.WF S50000x16 S690000x1 S690000x16 [1] [0] [0] 1

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S690000x1_S690000x16_1_0_n_n_0_1_116 : GatherDims S50000x16 S690000x1 S690000x16 where
  offsetDims := [1]
  collapsedSliceDims := [0]
  operandBatchingDims := []
  startIndicesBatchingDims := []
  startIndexMap := [0]
  indexVectorDim := 1
  sliceSizes := ![1, 16]
  wf := gather_S50000x16_S690000x1_S690000x16_1_0_n_n_0_1_116_wf
def scatter_S50000x16_S690000x1_S690000x16_1_0_0_1 : ScatterDims S50000x16 S690000x1 S690000x16 where
  updateWindowDims := [1]
  insertedWindowDims := [0]
  scatterDimsToOperandDims := [0]
  indexVectorDim := 1
  wf := scatter_S50000x16_S690000x1_S690000x16_1_0_0_1_wf

class Facts : Prop extends Facts₀ where

variable [Facts]
-- ==== Proof.Hosts.lean ====
/-
  The host side of the kernel program, read back boundary by boundary.

  Between its six kernel regions the program runs stretches of array operations. The three opening stretches
  compute, from the edge list alone, every edge's source node, target node and coefficient (the product of the two
  end nodes' inverse square-root degrees, self loops included): the same operations, in the same order, as the
  reference's. Each later stretch is one aggregation over the edges, rows gathered at the sources, scaled and summed
  into the targets, followed by the bias vector laid out as a one-row array. A buffer that a stretch does not write
  passes it unchanged, and a region changes only its own output array, which is how the edge arrays and the
  arguments reach the places where they are read.
-/
import proofs.«132967_j26817775797032_1_alg».proof.Proof.Gen.KernelIdeal.Frame
import proofs.«132967_j26817775797032_1_alg».proof.Proof.RefRead
import Idealize.ShloMosaic.Lib.StableHlo.Run

set_option maxRecDepth 16384

noncomputable section

namespace Cert.KernelIdeal.Hosts

open Cert.KernelIdeal Cert.KernelIdeal.Gen
open Idealize.ShloMosaic Idealize.ShloMosaic.TcCoe Idealize.SL.Sem

variable {F : FTy → Type} [FloatOps F]

/-! ## One aggregation over the edges -/

/-- A node index below zero counts from the end: `s + 50000` where `s < 0`, else `s`; laid out as a column. -/
def wrapCol (s : (⟨S690000, .i32⟩ : BufTy).Contents (Elt F)) : (⟨S690000x1, .i32⟩ : BufTy).Contents (Elt F) :=
  broadcastInDim S690000x1 ![0] Gen.bcast_S690000_S690000x1_0
    (select (cmpi .slt s (broadcastInDim S690000 ![] Gen.bcast_S_S690000 (constantI S_ 32 0#32)))
      (addi s (broadcastInDim S690000 ![] Gen.bcast_S_S690000 (constantI S_ 32 50000#32))) s)

/-- One aggregation over the edges at width 128: every edge takes the row of `h` at its source node, scaled by the
    edge's coefficient `n`, and the scaled rows are summed into the edge's target node, from zero. -/
def aggregate128 (h : (⟨S50000x128, .f32⟩ : BufTy).Contents (Elt F)) (s d : (⟨S690000, .i32⟩ : BufTy).Contents (Elt F))
    (n : (⟨S690000, .f32⟩ : BufTy).Contents (Elt F)) : (⟨S50000x128, .f32⟩ : BufTy).Contents (Elt F) :=
  Host.scatterAdd scatter_S50000x128_S690000x1_S690000x128_1_0_0_1
    (broadcastInDim S50000x128 ![] Gen.bcast_S_S50000x128 (constant (F := F) S_ .f32 0x00000000#32))
    (broadcastInDim S690000x1 ![0] Gen.bcast_S690000_S690000x1_0 d)
    (mulf (Host.gather gather_S50000x128_S690000x1_S690000x128_1_0_n_n_0_1_1128 h (wrapCol s))
      (broadcastInDim S690000x128 ![0, 1] Gen.bcast_S690000x1_S690000x128_0_1
        (broadcastInDim S690000x1 ![0] Gen.bcast_S690000_S690000x1_0 n)))

/-- The same aggregation at width 16. -/
def aggregate16 (h : (⟨S50000x16, .f32⟩ : BufTy).Contents (Elt F)) (s d : (⟨S690000, .i32⟩ : BufTy).Contents (Elt F))
    (n : (⟨S690000, .f32⟩ : BufTy).Contents (Elt F)) : (⟨S50000x16, .f32⟩ : BufTy).Contents (Elt F) :=
  Host.scatterAdd scatter_S50000x16_S690000x1_S690000x16_1_0_0_1
    (broadcastInDim S50000x16 ![] Gen.bcast_S_S50000x16 (constant (F := F) S_ .f32 0x00000000#32))
    (broadcastInDim S690000x1 ![0] Gen.bcast_S690000_S690000x1_0 d)
    (mulf (Host.gather gather_S50000x16_S690000x1_S690000x16_1_0_n_n_0_1_116 h (wrapCol s))
      (broadcastInDim S690000x16 ![0, 1] Gen.bcast_S690000x1_S690000x16_0_1
        (broadcastInDim S690000x1 ![0] Gen.bcast_S690000_S690000x1_0 n)))

variable (m : (ℓ : Loc nD τ sig) → Buf (Elt F) ℓ) (ρ : Dev nD → PrngReg)

/-! ## What each stretch writes, and that it keeps everything else -/

/-- The references the stretch `hostOps0` writes. -/
abbrev written0 : List (Ref sig .tc) :=
  [main_v0, main_v1, main_v2, main_v3, main_v4, main_v5, main_v6, main_cst, main_v7, main_cst_0, main_v8, main_v9,
   main_v10, main_cst_1, main_v11, main_v12, main_cst_2, main_v13, main_v14, main_v15, main_cst_3]

theorem written0_sub : (hostOps0 : List (HloOp τ sig (Elt F))).Forall fun op =>
    op.writes ⊆ (written0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- Every other buffer passes that stretch unchanged. -/
theorem W1_keeps (c : Dev nD) (b : Ref sig .tc) (hb : b ∉ written0) :
    W1 m ρ c (Proc.devRef .tc b) = W0 m ρ c (Proc.devRef .tc b) :=
  StableHlo.after_of_writes_sub (W := written0) hostOps0 (W0 m ρ c) written0_sub hb

/-- The references the stretch `hostOps1` writes. -/
abbrev written1 : List (Ref sig .tc) :=
  [main_c_7, main_v33, main_v34, main_c_8, main_v35, main_v36, main_v37, main_v38, main_v39, main_v40, main_v41,
   main_v42, main_cst_9, main_v43, main_v44, main_v45, main_v46]

theorem written1_sub : (hostOps1 : List (HloOp τ sig (Elt F))).Forall fun op =>
    op.writes ⊆ (written1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- Every other buffer passes that stretch unchanged. -/
theorem W5_keeps (c : Dev nD) (b : Ref sig .tc) (hb : b ∉ written1) :
    W5 m ρ c (Proc.devRef .tc b) = W4 m ρ c (Proc.devRef .tc b) :=
  StableHlo.after_of_writes_sub (W := written1) hostOps1 (W4 m ρ c) written1_sub hb

/-- The references the stretch `hostOps3` writes. -/
abbrev written3 : List (Ref sig .tc) :=
  [main_c_10, main_v49, main_v50, main_c_11, main_v51, main_v52, main_v53, main_v54, main_v55, main_v56, main_v57,
   main_v58, main_cst_12, main_v59, main_v60, main_v61, main_v62]

theorem written3_sub : (hostOps3 : List (HloOp τ sig (Elt F))).Forall fun op =>
    op.writes ⊆ (written3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- Every other buffer passes that stretch unchanged. -/
theorem W8_keeps (c : Dev nD) (b : Ref sig .tc) (hb : b ∉ written3) :
    W8 m ρ c (Proc.devRef .tc b) = W7 m ρ c (Proc.devRef .tc b) :=
  StableHlo.after_of_writes_sub (W := written3) hostOps3 (W7 m ρ c) written3_sub hb

/-- The references the stretch `hostOps5` writes. -/
abbrev written5 : List (Ref sig .tc) :=
  [main_c_13, main_v65, main_v66, main_c_14, main_v67, main_v68, main_v69, main_v70, main_v71, main_v72, main_v73,
   main_v74, main_cst_15, main_v75, main_v76, main_v77, main_v78]

theorem written5_sub : (hostOps5 : List (HloOp τ sig (Elt F))).Forall fun op =>
    op.writes ⊆ (written5.map (Proc.devRef (τ := τ) .tc)).toFinset := by
  simp only [hostOps5, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- Every other buffer passes that stretch unchanged. -/
theorem W11_keeps (c : Dev nD) (b : Ref sig .tc) (hb : b ∉ written5) :
    W11 m ρ c (Proc.devRef .tc b) = W10 m ρ c (Proc.devRef .tc b) :=
  StableHlo.after_of_writes_sub (W := written5) hostOps5 (W10 m ρ c) written5_sub hb

/-- The references the stretch `hostOps0_1` writes. -/
abbrev written0_1 : List (Ref sig .tc) :=
  [main_call0_v0, main_call0_v1, main_v16]

theorem written0_1_sub : (hostOps0_1 : List (HloOp τ sig (Elt F))).Forall fun op =>
    op.writes ⊆ (written0_1.map (Proc.devRef (τ := τ) .tc)).toFinset := by
  simp only [hostOps0_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- Every other buffer passes that stretch unchanged. -/
theorem W2_keeps (c : Dev nD) (b : Ref sig .tc) (hb : b ∉ written0_1) :
    W2 m ρ c (Proc.devRef .tc b) = W1 m ρ c (Proc.devRef .tc b) :=
  StableHlo.after_of_writes_sub (W := written0_1) hostOps0_1 (W1 m ρ c) written0_1_sub hb

/-- The references the stretch `hostOps0_2` writes. -/
abbrev written0_2 : List (Ref sig .tc) :=
  [main_c, main_v17, main_v18, main_c_4, main_v19, main_v20, main_v21, main_v22, main_v23, main_c_5, main_v24,
   main_v25, main_c_6, main_v26, main_v27, main_v28, main_v29, main_v30, main_v31]

theorem written0_2_sub : (hostOps0_2 : List (HloOp τ sig (Elt F))).Forall fun op =>
    op.writes ⊆ (written0_2.map (Proc.devRef (τ := τ) .tc)).toFinset := by
  simp only [hostOps0_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- Every other buffer passes that stretch unchanged. -/
theorem W3_keeps (c : Dev nD) (b : Ref sig .tc) (hb : b ∉ written0_2) :
    W3 m ρ c (Proc.devRef .tc b) = W2 m ρ c (Proc.devRef .tc b) :=
  StableHlo.after_of_writes_sub (W := written0_2) hostOps0_2 (W2 m ρ c) written0_2_sub hb

/-! ## The three opening stretches: every edge's source, target and coefficient -/

set_option maxHeartbeats 4000000 in
theorem W3_v3 (c : Dev nD) :
    W3 m ρ c (Proc.devRef .tc main_v3) = Cert.ReferenceIdeal.ReadP.val_main_v3 (F := F) (m ((c : Thread nD τ).loc main_arg1)) := by
  show StableHlo.after hostOps0_2 (StableHlo.after hostOps0_1 (StableHlo.after hostOps0 (W0 m ρ c))) (Proc.devRef .tc main_v3) = _
  dsimp only [hostOps0, hostOps0_1, hostOps0_2]
  after_results_simp
  rfl

set_option maxHeartbeats 4000000 in
theorem W3_v6 (c : Dev nD) :
    W3 m ρ c (Proc.devRef .tc main_v6) = Cert.ReferenceIdeal.ReadP.val_main_v6 (F := F) (m ((c : Thread nD τ).loc main_arg1)) := by
  show StableHlo.after hostOps0_2 (StableHlo.after hostOps0_1 (StableHlo.after hostOps0 (W0 m ρ c))) (Proc.devRef .tc main_v6) = _
  dsimp only [hostOps0, hostOps0_1, hostOps0_2]
  after_results_simp
  rfl

set_option maxHeartbeats 4000000 in
theorem W3_v31 (c : Dev nD) :
    W3 m ρ c (Proc.devRef .tc main_v31) = Cert.ReferenceIdeal.ReadP.val_main_v31 (F := F) (m ((c : Thread nD τ).loc main_arg1)) := by
  show StableHlo.after hostOps0_2 (StableHlo.after hostOps0_1 (StableHlo.after hostOps0 (W0 m ρ c))) (Proc.devRef .tc main_v31) = _
  dsimp only [hostOps0, hostOps0_1, hostOps0_2]
  after_results_simp
  rfl

/-- An argument array reaches the first region as launched. -/
theorem W3_arg (c : Dev nD) (b : Ref sig .tc) (h0 : b ∉ written0) (h1 : b ∉ written0_1) (h2 : b ∉ written0_2) :
    W3 m ρ c (Proc.devRef .tc b) = m ((c : Thread nD τ).loc b) :=
  (W3_keeps m ρ c b h2).trans ((W2_keeps m ρ c b h1).trans ((W1_keeps m ρ c b h0).trans rfl))

/-! ## The stretch after the first product: the first aggregation, and the first bias as a row -/

set_option maxHeartbeats 4000000 in
theorem W5_v45 (c : Dev nD) :
    W5 m ρ c (Proc.devRef .tc main_v45)
      = aggregate128 (W4 m ρ c (Proc.devRef .tc main_v32)) (W4 m ρ c (Proc.devRef .tc main_v3))
          (W4 m ρ c (Proc.devRef .tc main_v6)) (W4 m ρ c (Proc.devRef .tc main_v31)) := by
  show StableHlo.after hostOps1 (W4 m ρ c) (Proc.devRef .tc main_v45) = _
  dsimp only [hostOps1]
  after_results_simp
  rfl

set_option maxHeartbeats 4000000 in
theorem W5_v46 (c : Dev nD) :
    W5 m ρ c (Proc.devRef .tc main_v46)
      = shapeCast S1x128 (W4 m ρ c (Proc.devRef .tc main_arg3)) Gen.shapeCasts_S128_S1x128 := by
  show StableHlo.after hostOps1 (W4 m ρ c) (Proc.devRef .tc main_v46) = _
  dsimp only [hostOps1]
  after_results_simp
  rfl

/-! ## The stretch after the second product -/

set_option maxHeartbeats 4000000 in
theorem W8_v61 (c : Dev nD) :
    W8 m ρ c (Proc.devRef .tc main_v61)
      = aggregate128 (W7 m ρ c (Proc.devRef .tc main_v48)) (W7 m ρ c (Proc.devRef .tc main_v3))
          (W7 m ρ c (Proc.devRef .tc main_v6)) (W7 m ρ c (Proc.devRef .tc main_v31)) := by
  show StableHlo.after hostOps3 (W7 m ρ c) (Proc.devRef .tc main_v61) = _
  dsimp only [hostOps3]
  after_results_simp
  rfl

set_option maxHeartbeats 4000000 in
theorem W8_v62 (c : Dev nD) :
    W8 m ρ c (Proc.devRef .tc main_v62)
      = shapeCast S1x128 (W7 m ρ c (Proc.devRef .tc main_arg5)) Gen.shapeCasts_S128_S1x128 := by
  show StableHlo.after hostOps3 (W7 m ρ c) (Proc.devRef .tc main_v62) = _
  dsimp only [hostOps3]
  after_results_simp
  rfl

/-! ## The stretch after the third product, at width 16 -/

set_option maxHeartbeats 4000000 in
theorem W11_v77 (c : Dev nD) :
    W11 m ρ c (Proc.devRef .tc main_v77)
      = aggregate16 (W10 m ρ c (Proc.devRef .tc main_v64)) (W10 m ρ c (Proc.devRef .tc main_v3))
          (W10 m ρ c (Proc.devRef .tc main_v6)) (W10 m ρ c (Proc.devRef .tc main_v31)) := by
  show StableHlo.after hostOps5 (W10 m ρ c) (Proc.devRef .tc main_v77) = _
  dsimp only [hostOps5]
  after_results_simp
  rfl

set_option maxHeartbeats 4000000 in
theorem W11_v78 (c : Dev nD) :
    W11 m ρ c (Proc.devRef .tc main_v78)
      = shapeCast S1x16 (W10 m ρ c (Proc.devRef .tc main_arg7)) Gen.shapeCasts_S16_S1x16 := by
  show StableHlo.after hostOps5 (W10 m ρ c) (Proc.devRef .tc main_v78) = _
  dsimp only [hostOps5]
  after_results_simp
  rfl

end Cert.KernelIdeal.Hosts

end
-- ==== Proof.Product0.lean ====
import proofs.«132967_j26817775797032_1_alg».proof.Proof.Gen.KernelIdeal.Frame
import proofs.«132967_j26817775797032_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Product0

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-! ## One block's product, read at an index

The body multiplies a block of 5000 rows of the left array by the whole right array into a zero accumulator. Both
operands are first changed to bf16, which at the ideal values changes nothing (nor does a reshape of the left block
to the shape it already has, where the body makes one), so entry (r, q) of the result is the sum over k of
left (r, k) times right (k, q). -/

/-- The kernel's dimension numbers send an output index and a contracted index to the left operand's index: on the
    row axis the output's row. -/
theorem lhs_axis0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- On the left operand's column axis: the contracted index. -/
theorem lhs_axis1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- On the right operand's row axis: the contracted index. -/
theorem rhs_axis0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- On the right operand's column axis: the output's column. -/
theorem rhs_axis1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Row `i 0`, column `k` of the left block. -/
abbrev leftAt (i : S5000x128.Idx) (k : Fin 256) : S5000x256.Idx := fun a => match a with
  | ⟨0, _⟩ => ⟨(i 0).val, (i 0).isLt⟩
  | ⟨1, _⟩ => ⟨k.val, k.isLt⟩
/-- Row `k`, column `i 1` of the right array. -/
abbrev rightAt (i : S5000x128.Idx) (k : Fin 256) : S256x128.Idx := fun a => match a with
  | ⟨0, _⟩ => ⟨k.val, k.isLt⟩
  | ⟨1, _⟩ => ⟨(i 1).val, (i 1).isLt⟩

/-- The body's result at an index of the block: the row of the left block times the column of the right array. -/
theorem block_product (X : Vec Ideal S5000x256 .f32) (W : Vec Ideal S256x128 .f32) (i : S5000x128.Idx) :
    k0_pay1 (F := Ideal) X W i = ∑ k : Fin 256, X (leftAt i k) * W (rightAt i k) := by
  unfold k0_pay1
  try simp only [shapeCast_self]
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx i ((ValueIdx.contrEquiv1 dot_S5000x256_S256x128_S5000x128_1_0_0_1_n_n 256 rfl rfl).symm k) = leftAt i k := funext fun a => Fin.ext (by
    match a with
    | ⟨0, _⟩ => exact lhs_axis0 _ _
    | ⟨1, _⟩ => exact (lhs_axis1 _ _).trans hk)
  have er : dot_S5000x256_S256x128_S5000x128_1_0_0_1_n_n.rhsIdx i ((ValueIdx.contrEquiv1 dot_S5000x256_S256x128_S5000x128_1_0_0_1_n_n 256 rfl rfl).symm k) = rightAt i k := funext fun a => Fin.ext (by
    match a with
    | ⟨0, _⟩ => exact (rhs_axis0 _ _).trans hk
    | ⟨1, _⟩ => exact rhs_axis1 _ _)
  rw [el, er]
  rfl

/-! ## The host's product, read at an index

The same reading for the host's `dot_general` of two whole arrays, whatever the arrays are: entry (r, q) is the sum
over k of left (r, k) times right (k, q). -/

/-- The host's product of any two arrays at an index of the result. -/
theorem host_product (A : Vec Ideal Cert.ReferenceIdeal.S50000x256 .f32) (B : Vec Ideal Cert.ReferenceIdeal.S256x128 .f32) (i : Cert.ReferenceIdeal.S50000x128.Idx) :
    Host.dotGeneral (F := Ideal) (φ₁ := .f32) (φ₂ := .f32) Cert.ReferenceIdeal.dot_S50000x256_S256x128_S50000x128_1_0_0_1_n_n none A B i
      = ∑ k : Fin 256, A (Cert.ReferenceIdeal.ReadP.lidx_main_v32 i k) * B (Cert.ReferenceIdeal.ReadP.ridx_main_v32 i k) := by
  simp only [Host.dotGeneral]
  rw [Ideal.dotGeneral_apply, ← Equiv.sum_comp (ValueIdx.contrEquiv1 Cert.ReferenceIdeal.dot_S50000x256_S256x128_S50000x128_1_0_0_1_n_n 256 rfl rfl).symm]
  refine Finset.sum_congr rfl fun k _ => ?_
  have hk := ValueIdx.contrEquiv1_symm_val Cert.ReferenceIdeal.dot_S50000x256_S256x128_S50000x128_1_0_0_1_n_n 256 rfl rfl k
  have el : Cert.ReferenceIdeal.dot_S50000x256_S256x128_S50000x128_1_0_0_1_n_n.lhsIdx i ((ValueIdx.contrEquiv1 Cert.ReferenceIdeal.dot_S50000x256_S256x128_S50000x128_1_0_0_1_n_n 256 rfl rfl).symm k) = Cert.ReferenceIdeal.ReadP.lidx_main_v32 i k := funext fun a => Fin.ext (by
    match a with
    | ⟨0, _⟩ => exact Cert.ReferenceIdeal.ReadP.lhs_main_v32_0 _ _
    | ⟨1, _⟩ => exact (Cert.ReferenceIdeal.ReadP.lhs_main_v32_1 _ _).trans hk)
  have er : Cert.ReferenceIdeal.dot_S50000x256_S256x128_S50000x128_1_0_0_1_n_n.rhsIdx i ((ValueIdx.contrEquiv1 Cert.ReferenceIdeal.dot_S50000x256_S256x128_S50000x128_1_0_0_1_n_n 256 rfl rfl).symm k) = Cert.ReferenceIdeal.ReadP.ridx_main_v32 i k := funext fun a => Fin.ext (by
    match a with
    | ⟨0, _⟩ => exact (Cert.ReferenceIdeal.ReadP.rhs_main_v32_0 _ _).trans hk
    | ⟨1, _⟩ => exact Cert.ReferenceIdeal.ReadP.rhs_main_v32_1 _ _)
  rw [el, er]

/-! ## From the blocks to the whole array

Grid point `t` reads rows 5000 t to 5000 t + 4999 of the left array and the whole right array, and writes the same
rows of the output. So what each point writes back is its block of the host's product of the two whole arrays, and
the ten blocks fill the output. -/

/-- The zero offsets of the body's whole-buffer accesses, as a constant function. -/
theorem offsets_zero : (![0, 0] : Fin 2 → Nat) = fun _ => 0 := funext fun a => by
  match a with
  | ⟨0, _⟩ => rfl
  | ⟨1, _⟩ => rfl

/-- The index maps over the grid: the left array's block moves down its rows with the output's, at column block 0;
    the right array's one block stays; the output's block row is the point's number. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every block row of the output is some point's. -/
theorem block_onto : ∀ (b : Fin 10), ∃ t : Fin cfg0.N, win0_2.index t = ![b.val, 0] :=
  (by decide +kernel : ∀ (b : Fin 10), ∃ t : Fin grid0.N, win0_2.index t = ![b.val, 0])

/-- What point `t` writes back is block `t` of the host's product of the two arrays as the region finds them. -/
theorem flushed_eq (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S50000x256_S256x128_S50000x128_1_0_0_1_n_n none (V c main_arg0) (V c main_arg2)) := by
  show (cfg0.win 2).cut (grid0.coords t) ((dat0 V c).after 2 t) = _
  rw [after0_2]
  unfold out0_2
  rw [View.canon_unit_zero offsets_zero]
  simp only [View.ld_unit_zero (S := S5000x256) offsets_zero, View.ld_unit_zero (S := S256x128) offsets_zero]
  obtain ⟨e0, e1, e2, e3, e4, e5⟩ := block_indices t
  funext j
  show k0_pay1 (F := Ideal) (iblk0 V c 0 t) (iblk0 V c 1 t) j
    = Host.dotGeneral (F := Ideal) (φ₁ := .f32) (φ₂ := .f32) Cert.ReferenceIdeal.dot_S50000x256_S256x128_S50000x128_1_0_0_1_n_n none (V c main_arg0) (V c main_arg2) (((cfg0.win 2).blk t).view.emb j)
  rw [block_product, host_product]
  refine Finset.sum_congr rfl fun k _ => ?_
  have h0 : ((cfg0.win 0).blk t).view.emb (leftAt j k) = Cert.ReferenceIdeal.ReadP.lidx_main_v32 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (rightAt j k) = Cert.ReferenceIdeal.ReadP.ridx_main_v32 (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  have b0 : iblk0 V c 0 t (leftAt j k) = V c main_arg0 (Cert.ReferenceIdeal.ReadP.lidx_main_v32 (((cfg0.win 2).blk t).view.emb j) k) :=
    congrArg (V c main_arg0) h0
  have b1 : iblk0 V c 1 t (rightAt j k) = V c main_arg2 (Cert.ReferenceIdeal.ReadP.ridx_main_v32 (((cfg0.win 2).blk t).view.emb j) k) :=
    congrArg (V c main_arg2) h1
  rw [b0, b1]

/-- An index of the output array is in point `t`'s block iff each coordinate is in the block's range on its axis. -/
theorem mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every index of the output array is in some point's block: row `r` is in the block of point `r / 5000`. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := block_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the region, whole: the host's product of the two arrays. -/
theorem array_eq (c : Dev nD) :
    ((dat0 (F := Ideal) V c).arrAt 2 cfg0.N : Cert.ReferenceIdeal.S50000x128.Idx → EReal)
      = Host.dotGeneral (F := Ideal) (φ₁ := .f32) (φ₂ := .f32) Cert.ReferenceIdeal.dot_S50000x256_S256x128_S50000x128_1_0_0_1_n_n none (V c main_arg0) (V c main_arg2) := by
  exact (dat0 (F := Ideal) V c).arrAt_eq_of_cover 2 _ (fun t _ => flushed_eq V c t) covered

end Cert.KernelIdeal.Product0

end
-- ==== Proof.Product2.lean ====
import proofs.«132967_j26817775797032_1_alg».proof.Proof.Gen.KernelIdeal.Frame
import proofs.«132967_j26817775797032_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Product2

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-! ## One block's product, read at an index

The body multiplies a block of 5000 rows of the left array by the whole right array into a zero accumulator. Both
operands are first changed to bf16, which at the ideal values changes nothing (nor does a reshape of the left block
to the shape it already has, where the body makes one), so entry (r, q) of the result is the sum over k of
left (r, k) times right (k, q). -/

/-- The kernel's dimension numbers send an output index and a contracted index to the left operand's index: on the
    row axis the output's row. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- On the left operand's column axis: the contracted index. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- On the right operand's row axis: the contracted index. -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- On the right operand's column axis: the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row `i 0`, column `k` of the left block. -/
abbrev leftAt (i : S5000x128.Idx) (k : Fin 128) : S5000x128.Idx := fun a => match a with
  | ⟨0, _⟩ => ⟨(i 0).val, (i 0).isLt⟩
  | ⟨1, _⟩ => ⟨k.val, k.isLt⟩
/-- Row `k`, column `i 1` of the right array. -/
abbrev rightAt (i : S5000x128.Idx) (k : Fin 128) : S128x128.Idx := fun a => match a with
  | ⟨0, _⟩ => ⟨k.val, k.isLt⟩
  | ⟨1, _⟩ => ⟨(i 1).val, (i 1).isLt⟩

/-- The body's result at an index of the block: the row of the left block times the column of the right array. -/
theorem block_product (X : Vec Ideal S5000x128 .f32) (W : Vec Ideal S128x128 .f32) (i : S5000x128.Idx) :
    k2_pay1 (F := Ideal) X W i = ∑ k : Fin 128, X (leftAt i k) * W (rightAt i k) := by
  unfold k2_pay1
  try simp only [shapeCast_self]
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = leftAt i k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx i ((ValueIdx.contrEquiv1 dot_S5000x128_S128x128_S5000x128_1_0_0_1_n_n 128 rfl rfl).symm k) = rightAt i k := funext fun a => Fin.ext (by
    match a with
    | ⟨0, _⟩ => exact (rhs_axis0 _ _).trans hk
    | ⟨1, _⟩ => exact rhs_axis1 _ _)
  rw [el, er]
  rfl

/-! ## The host's product, read at an index

The same reading for the host's `dot_general` of two whole arrays, whatever the arrays are: entry (r, q) is the sum
over k of left (r, k) times right (k, q). -/

/-- The host's product of any two arrays at an index of the result. -/
theorem host_product (A : Vec Ideal Cert.ReferenceIdeal.S50000x128 .f32) (B : Vec Ideal Cert.ReferenceIdeal.S128x128 .f32) (i : Cert.ReferenceIdeal.S50000x128.Idx) :
    Host.dotGeneral (F := Ideal) (φ₁ := .f32) (φ₂ := .f32) Cert.ReferenceIdeal.dot_S50000x128_S128x128_S50000x128_1_0_0_1_n_n none A B i
      = ∑ k : Fin 128, A (Cert.ReferenceIdeal.ReadP.lidx_main_v50 i k) * B (Cert.ReferenceIdeal.ReadP.ridx_main_v50 i k) := by
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((ValueIdx.contrEquiv1 Cert.ReferenceIdeal.dot_S50000x128_S128x128_S50000x128_1_0_0_1_n_n 128 rfl rfl).symm k) = Cert.ReferenceIdeal.ReadP.lidx_main_v50 i k := funext fun a => Fin.ext (by
    match a with
    | ⟨0, _⟩ => exact Cert.ReferenceIdeal.ReadP.lhs_main_v50_0 _ _
    | ⟨1, _⟩ => exact (Cert.ReferenceIdeal.ReadP.lhs_main_v50_1 _ _).trans hk)
  have er : Cert.ReferenceIdeal.dot_S50000x128_S128x128_S50000x128_1_0_0_1_n_n.rhsIdx i ((ValueIdx.contrEquiv1 Cert.ReferenceIdeal.dot_S50000x128_S128x128_S50000x128_1_0_0_1_n_n 128 rfl rfl).symm k) = Cert.ReferenceIdeal.ReadP.ridx_main_v50 i k := funext fun a => Fin.ext (by
    match a with
    | ⟨0, _⟩ => exact (Cert.ReferenceIdeal.ReadP.rhs_main_v50_0 _ _).trans hk
    | ⟨1, _⟩ => exact Cert.ReferenceIdeal.ReadP.rhs_main_v50_1 _ _)
  rw [el, er]

/-! ## From the blocks to the whole array

Grid point `t` reads rows 5000 t to 5000 t + 4999 of the left array and the whole right array, and writes the same
rows of the output. So what each point writes back is its block of the host's product of the two whole arrays, and
the ten blocks fill the output. -/

/-- The zero offsets of the body's whole-buffer accesses, as a constant function. -/
theorem offsets_zero : (![0, 0] : Fin 2 → Nat) = fun _ => 0 := funext fun a => by
  match a with
  | ⟨0, _⟩ => rfl
  | ⟨1, _⟩ => rfl

/-- The index maps over the grid: the left array's block moves down its rows with the output's, at column block 0;
    the right array's one block stays; the output's block row is the point's number. -/
theorem block_indices : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 9
    ∧ win2_2.index t (1 : Fin 2) = 0 :=
  (by decide +kernel : ∀ t : Fin grid2.N, _)

/-- Every block row of the output is some point's. -/
theorem block_onto : ∀ (b : Fin 10), ∃ t : Fin cfg2.N, win2_2.index t = ![b.val, 0] :=
  (by decide +kernel : ∀ (b : Fin 10), ∃ t : Fin grid2.N, win2_2.index t = ![b.val, 0])

/-- What point `t` writes back is block `t` of the host's product of the two arrays as the region finds them. -/
theorem flushed_eq (c : Dev nD) (t : Fin cfg2.N) :
    (dat2 (F := Ideal) V c).flushed 2 t = ((cfg2.win 2).blk t).view.read (Elt Ideal)
      (Host.dotGeneral (F := Ideal) (φ₁ := .f32) (φ₂ := .f32) Cert.ReferenceIdeal.dot_S50000x128_S128x128_S50000x128_1_0_0_1_n_n none (V c main_v47) (V c main_arg4)) := by
  show (cfg2.win 2).cut (grid2.coords t) ((dat2 V c).after 2 t) = _
  rw [after2_2]
  unfold out2_2
  rw [View.canon_unit_zero offsets_zero]
  simp only [View.ld_unit_zero (S := S5000x128) offsets_zero, View.ld_unit_zero (S := S128x128) offsets_zero]
  obtain ⟨e0, e1, e2, e3, e4, e5⟩ := block_indices t
  funext j
  show k2_pay1 (F := Ideal) (iblk2 V c 0 t) (iblk2 V c 1 t) j
    = Host.dotGeneral (F := Ideal) (φ₁ := .f32) (φ₂ := .f32) Cert.ReferenceIdeal.dot_S50000x128_S128x128_S50000x128_1_0_0_1_n_n none (V c main_v47) (V c main_arg4) (((cfg2.win 2).blk t).view.emb j)
  rw [block_product, host_product]
  refine Finset.sum_congr rfl fun k _ => ?_
  have h0 : ((cfg2.win 0).blk t).view.emb (leftAt j k) = Cert.ReferenceIdeal.ReadP.lidx_main_v50 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (rightAt j k) = Cert.ReferenceIdeal.ReadP.ridx_main_v50 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  have b0 : iblk2 V c 0 t (leftAt j k) = V c main_v47 (Cert.ReferenceIdeal.ReadP.lidx_main_v50 (((cfg2.win 2).blk t).view.emb j) k) :=
    congrArg (V c main_v47) h0
  have b1 : iblk2 V c 1 t (rightAt j k) = V c main_arg4 (Cert.ReferenceIdeal.ReadP.ridx_main_v50 (((cfg2.win 2).blk t).view.emb j) k) :=
    congrArg (V c main_arg4) h1
  rw [b0, b1]

/-- An index of the output array is in point `t`'s block iff each coordinate is in the block's range on its axis. -/
theorem mem_block (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- Every index of the output array is in some point's block: row `r` is in the block of point `r / 5000`. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := block_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The output array after the region, whole: the host's product of the two arrays. -/
theorem array_eq (c : Dev nD) :
    ((dat2 (F := Ideal) V c).arrAt 2 cfg2.N : Cert.ReferenceIdeal.S50000x128.Idx → EReal)
      = Host.dotGeneral (F := Ideal) (φ₁ := .f32) (φ₂ := .f32) Cert.ReferenceIdeal.dot_S50000x128_S128x128_S50000x128_1_0_0_1_n_n none (V c main_v47) (V c main_arg4) := by
  exact (dat2 (F := Ideal) V c).arrAt_eq_of_cover 2 _ (fun t _ => flushed_eq V c t) covered

end Cert.KernelIdeal.Product2

end
-- ==== Proof.Product4.lean ====
import proofs.«132967_j26817775797032_1_alg».proof.Proof.Gen.KernelIdeal.Frame
import proofs.«132967_j26817775797032_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Product4

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-! ## One block's product, read at an index

The body multiplies a block of 5000 rows of the left array by the whole right array into a zero accumulator. Both
operands are first changed to bf16, which at the ideal values changes nothing (nor does a reshape of the left block
to the shape it already has, where the body makes one), so entry (r, q) of the result is the sum over k of
left (r, k) times right (k, q). -/

/-- The kernel's dimension numbers send an output index and a contracted index to the left operand's index: on the
    row axis the output's row. -/
theorem lhs_axis0 (i : S5000x16.Idx) (q : dot_S5000x128_S128x16_S5000x16_1_0_0_1_n_n.contr.Idx) :
    (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide), dif_pos (show (0 : Fin S5000x128.rank) ∈ dot_S5000x128_S128x16_S5000x16_1_0_0_1_n_n.lhsNonContracting by decide)]
  rfl
/-- On the left operand's column axis: the contracted index. -/
theorem lhs_axis1 (i : S5000x16.Idx) (q : dot_S5000x128_S128x16_S5000x16_1_0_0_1_n_n.contr.Idx) :
    (dot_S5000x128_S128x16_S5000x16_1_0_0_1_n_n.lhsIdx i q 1).val = (q ⟨0, by decide⟩).val :=
  dot_S5000x128_S128x16_S5000x16_1_0_0_1_n_n.lhsIdx_val_of_single rfl i q
/-- On the right operand's row axis: the contracted index. -/
theorem rhs_axis0 (i : S5000x16.Idx) (q : dot_S5000x128_S128x16_S5000x16_1_0_0_1_n_n.contr.Idx) :
    (dot_S5000x128_S128x16_S5000x16_1_0_0_1_n_n.rhsIdx i q 0).val = (q ⟨0, by decide⟩).val :=
  dot_S5000x128_S128x16_S5000x16_1_0_0_1_n_n.rhsIdx_val_of_single rfl i q
/-- On the right operand's column axis: the output's column. -/
theorem rhs_axis1 (i : S5000x16.Idx) (q : dot_S5000x128_S128x16_S5000x16_1_0_0_1_n_n.contr.Idx) :
    (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide), dif_pos (show (1 : Fin S128x16.rank) ∈ dot_S5000x128_S128x16_S5000x16_1_0_0_1_n_n.rhsNonContracting by decide)]
  rfl

/-- Row `i 0`, column `k` of the left block. -/
abbrev leftAt (i : S5000x16.Idx) (k : Fin 128) : S5000x128.Idx := fun a => match a with
  | ⟨0, _⟩ => ⟨(i 0).val, (i 0).isLt⟩
  | ⟨1, _⟩ => ⟨k.val, k.isLt⟩
/-- Row `k`, column `i 1` of the right array. -/
abbrev rightAt (i : S5000x16.Idx) (k : Fin 128) : S128x16.Idx := fun a => match a with
  | ⟨0, _⟩ => ⟨k.val, k.isLt⟩
  | ⟨1, _⟩ => ⟨(i 1).val, (i 1).isLt⟩

/-- The body's result at an index of the block: the row of the left block times the column of the right array. -/
theorem block_product (X : Vec Ideal S5000x128 .f32) (W : Vec Ideal S128x16 .f32) (i : S5000x16.Idx) :
    k4_pay1 (F := Ideal) X W i = ∑ k : Fin 128, X (leftAt i k) * W (rightAt i k) := by
  unfold k4_pay1
  try simp only [shapeCast_self]
  simp only [matmul]
  rw [Ideal.matmul_constant_zero_apply, ← Equiv.sum_comp (ValueIdx.contrEquiv1 dot_S5000x128_S128x16_S5000x16_1_0_0_1_n_n 128 rfl rfl).symm]
  refine Finset.sum_congr rfl fun k _ => ?_
  have hk := ValueIdx.contrEquiv1_symm_val dot_S5000x128_S128x16_S5000x16_1_0_0_1_n_n 128 rfl rfl k
  have el : dot_S5000x128_S128x16_S5000x16_1_0_0_1_n_n.lhsIdx i ((ValueIdx.contrEquiv1 dot_S5000x128_S128x16_S5000x16_1_0_0_1_n_n 128 rfl rfl).symm k) = leftAt i k := funext fun a => Fin.ext (by
    match a with
    | ⟨0, _⟩ => exact lhs_axis0 _ _
    | ⟨1, _⟩ => exact (lhs_axis1 _ _).trans hk)
  have er : dot_S5000x128_S128x16_S5000x16_1_0_0_1_n_n.rhsIdx i ((ValueIdx.contrEquiv1 dot_S5000x128_S128x16_S5000x16_1_0_0_1_n_n 128 rfl rfl).symm k) = rightAt i k := funext fun a => Fin.ext (by
    match a with
    | ⟨0, _⟩ => exact (rhs_axis0 _ _).trans hk
    | ⟨1, _⟩ => exact rhs_axis1 _ _)
  rw [el, er]
  rfl

/-! ## The host's product, read at an index

The same reading for the host's `dot_general` of two whole arrays, whatever the arrays are: entry (r, q) is the sum
over k of left (r, k) times right (k, q). -/

/-- The host's product of any two arrays at an index of the result. -/
theorem host_product (A : Vec Ideal Cert.ReferenceIdeal.S50000x128 .f32) (B : Vec Ideal Cert.ReferenceIdeal.S128x16 .f32) (i : Cert.ReferenceIdeal.S50000x16.Idx) :
    Host.dotGeneral (F := Ideal) (φ₁ := .f32) (φ₂ := .f32) Cert.ReferenceIdeal.dot_S50000x128_S128x16_S50000x16_1_0_0_1_n_n none A B i
      = ∑ k : Fin 128, A (Cert.ReferenceIdeal.ReadP.lidx_main_v68 i k) * B (Cert.ReferenceIdeal.ReadP.ridx_main_v68 i k) := by
  simp only [Host.dotGeneral]
  rw [Ideal.dotGeneral_apply, ← Equiv.sum_comp (ValueIdx.contrEquiv1 Cert.ReferenceIdeal.dot_S50000x128_S128x16_S50000x16_1_0_0_1_n_n 128 rfl rfl).symm]
  refine Finset.sum_congr rfl fun k _ => ?_
  have hk := ValueIdx.contrEquiv1_symm_val Cert.ReferenceIdeal.dot_S50000x128_S128x16_S50000x16_1_0_0_1_n_n 128 rfl rfl k
  have el : Cert.ReferenceIdeal.dot_S50000x128_S128x16_S50000x16_1_0_0_1_n_n.lhsIdx i ((ValueIdx.contrEquiv1 Cert.ReferenceIdeal.dot_S50000x128_S128x16_S50000x16_1_0_0_1_n_n 128 rfl rfl).symm k) = Cert.ReferenceIdeal.ReadP.lidx_main_v68 i k := funext fun a => Fin.ext (by
    match a with
    | ⟨0, _⟩ => exact Cert.ReferenceIdeal.ReadP.lhs_main_v68_0 _ _
    | ⟨1, _⟩ => exact (Cert.ReferenceIdeal.ReadP.lhs_main_v68_1 _ _).trans hk)
  have er : Cert.ReferenceIdeal.dot_S50000x128_S128x16_S50000x16_1_0_0_1_n_n.rhsIdx i ((ValueIdx.contrEquiv1 Cert.ReferenceIdeal.dot_S50000x128_S128x16_S50000x16_1_0_0_1_n_n 128 rfl rfl).symm k) = Cert.ReferenceIdeal.ReadP.ridx_main_v68 i k := funext fun a => Fin.ext (by
    match a with
    | ⟨0, _⟩ => exact (Cert.ReferenceIdeal.ReadP.rhs_main_v68_0 _ _).trans hk
    | ⟨1, _⟩ => exact Cert.ReferenceIdeal.ReadP.rhs_main_v68_1 _ _)
  rw [el, er]

/-! ## From the blocks to the whole array

Grid point `t` reads rows 5000 t to 5000 t + 4999 of the left array and the whole right array, and writes the same
rows of the output. So what each point writes back is its block of the host's product of the two whole arrays, and
the ten blocks fill the output. -/

/-- The zero offsets of the body's whole-buffer accesses, as a constant function. -/
theorem offsets_zero : (![0, 0] : Fin 2 → Nat) = fun _ => 0 := funext fun a => by
  match a with
  | ⟨0, _⟩ => rfl
  | ⟨1, _⟩ => rfl

/-- The index maps over the grid: the left array's block moves down its rows with the output's, at column block 0;
    the right array's one block stays; the output's block row is the point's number. -/
theorem block_indices : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) ≤ 9
    ∧ win4_2.index t (1 : Fin 2) = 0 :=
  (by decide +kernel : ∀ t : Fin grid4.N, _)

/-- Every block row of the output is some point's. -/
theorem block_onto : ∀ (b : Fin 10), ∃ t : Fin cfg4.N, win4_2.index t = ![b.val, 0] :=
  (by decide +kernel : ∀ (b : Fin 10), ∃ t : Fin grid4.N, win4_2.index t = ![b.val, 0])

/-- What point `t` writes back is block `t` of the host's product of the two arrays as the region finds them. -/
theorem flushed_eq (c : Dev nD) (t : Fin cfg4.N) :
    (dat4 (F := Ideal) V c).flushed 2 t = ((cfg4.win 2).blk t).view.read (Elt Ideal)
      (Host.dotGeneral (F := Ideal) (φ₁ := .f32) (φ₂ := .f32) Cert.ReferenceIdeal.dot_S50000x128_S128x16_S50000x16_1_0_0_1_n_n none (V c main_v63) (V c main_arg6)) := by
  show (cfg4.win 2).cut (grid4.coords t) ((dat4 V c).after 2 t) = _
  rw [after4_2]
  unfold out4_2
  rw [View.canon_unit_zero offsets_zero]
  simp only [View.ld_unit_zero (S := S5000x128) offsets_zero, View.ld_unit_zero (S := S128x16) offsets_zero]
  obtain ⟨e0, e1, e2, e3, e4, e5⟩ := block_indices t
  funext j
  show k4_pay1 (F := Ideal) (iblk4 V c 0 t) (iblk4 V c 1 t) j
    = Host.dotGeneral (F := Ideal) (φ₁ := .f32) (φ₂ := .f32) Cert.ReferenceIdeal.dot_S50000x128_S128x16_S50000x16_1_0_0_1_n_n none (V c main_v63) (V c main_arg6) (((cfg4.win 2).blk t).view.emb j)
  rw [block_product, host_product]
  refine Finset.sum_congr rfl fun k _ => ?_
  have h0 : ((cfg4.win 0).blk t).view.emb (leftAt j k) = Cert.ReferenceIdeal.ReadP.lidx_main_v68 (((cfg4.win 2).blk t).view.emb j) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have h1 : ((cfg4.win 1).blk t).view.emb (rightAt j k) = Cert.ReferenceIdeal.ReadP.ridx_main_v68 (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 16 + 1 * (j 1).val = win4_2.index t (1 : Fin 2) * 16 + 1 * (j 1).val; omega
  have b0 : iblk4 V c 0 t (leftAt j k) = V c main_v63 (Cert.ReferenceIdeal.ReadP.lidx_main_v68 (((cfg4.win 2).blk t).view.emb j) k) :=
    congrArg (V c main_v63) h0
  have b1 : iblk4 V c 1 t (rightAt j k) = V c main_arg6 (Cert.ReferenceIdeal.ReadP.ridx_main_v68 (((cfg4.win 2).blk t).view.emb j) k) :=
    congrArg (V c main_arg6) h1
  rw [b0, b1]

/-- An index of the output array is in point `t`'s block iff each coordinate is in the block's range on its axis. -/
theorem mem_block (t : Fin cfg4.N) (i : S50000x16.Idx) :
    i ∈ ((cfg4.win 2).blk t).view.set ↔ ∀ a : Fin 2, win4_2.index t a * S5000x16.size a ≤ (i a).val ∧ (i a).val < win4_2.index t a * S5000x16.size a + S5000x16.size a := by
  show i ∈ ((View.whole main_v64).slice (win4_2.rect t)).set ↔ _
  rw [View.set_slice_whole, Rect.mem_set_unit]
  exact Iff.rfl

/-- Every index of the output array is in some point's block: row `r` is in the block of point `r / 5000`. -/
theorem covered (i : S50000x16.Idx) :
    ∃ t : Fin cfg4.N, (cfg4.win 2).flush t = true ∧ i ∈ ((cfg4.win 2).blk t).view.set := by
  have hi0 : (i 0).val < 50000 := (i 0).isLt
  have hi1 : (i 1).val < 16 := (i 1).isLt
  obtain ⟨t, ht⟩ := block_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 16 ≤ (i 1).val ∧ (i 1).val < win4_2.index t (1 : Fin 2) * 16 + 16; omega

/-- The output array after the region, whole: the host's product of the two arrays. -/
theorem array_eq (c : Dev nD) :
    ((dat4 (F := Ideal) V c).arrAt 2 cfg4.N : Cert.ReferenceIdeal.S50000x16.Idx → EReal)
      = Host.dotGeneral (F := Ideal) (φ₁ := .f32) (φ₂ := .f32) Cert.ReferenceIdeal.dot_S50000x128_S128x16_S50000x16_1_0_0_1_n_n none (V c main_v63) (V c main_arg6) := by
  exact (dat4 (F := Ideal) V c).arrAt_eq_of_cover 2 _ (fun t _ => flushed_eq V c t) covered

end Cert.KernelIdeal.Product4

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.Bias1.lean ====
import proofs.«132967_j26817775797032_1_alg».proof.Proof.Gen.KernelIdeal.Frame
import proofs.«132967_j26817775797032_1_alg».proof.Proof.RefRead
import proofs.«132967_j26817775797032_1_alg».proof.Proof.LibKeepdims
import Idealize.ShloMosaic.Lib.ValueLayout
import Idealize.ShloMosaic.Lib.Pipeline.Value
import Idealize.ShloMosaic.Lib.ValueIdx
import Idealize.ShloMosaic.PureOps.Ideal.Laws

/-!
A bias step with a rectifier, as one function of whole arrays.

The call walks an array x of 50000 rows and 128 columns in ten blocks of 5000 rows. At every block it also
holds the single row b, adds b to each of the block's rows and keeps the larger of that sum and zero. Block t
of the result is written to rows 5000 t .. 5000 t + 4999 of the output, and these ten row ranges fill the
output. So the output, whole, holds at (r, q) the value max (x (r, q) + b (0, q)) 0.
-/

set_option maxRecDepth 16384

noncomputable section

namespace Cert.KernelIdeal.Bias1

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

open Idealize.ShloMosaic.ValueIdx

/-! ## The function the output array ends up holding -/

/-- Every row of `x` plus the one row of `b`, and then the larger of that and zero, entry by entry. -/
def biasRelu (x : FVec Ideal Cert.ReferenceIdeal.S50000x128 .f32) (b : FVec Ideal Cert.ReferenceIdeal.S1x128 .f32) :
    Cert.ReferenceIdeal.S50000x128.Idx → EReal :=
  maximumf (F := Ideal) (addf (F := Ideal) x (broadcastInDim Cert.ReferenceIdeal.S50000x128 ![0, 1] Cert.ReferenceIdeal.Gen.bcast_S1x128_S50000x128_0_1 b))
    (broadcastInDim Cert.ReferenceIdeal.S50000x128 ![] Cert.ReferenceIdeal.Gen.bcast_S_S50000x128 (constant (F := Ideal) Cert.ReferenceIdeal.S_ .f32 0x00000000#32))

/-- At row `r` and column `q` it is `max (x (r, q) + b (0, q)) 0`: stretching the one row over all rows reads
    row 0 at the same column, and stretching the scalar zero over the array reads the scalar. -/
theorem biasRelu_apply (x : FVec Ideal Cert.ReferenceIdeal.S50000x128 .f32) (b : FVec Ideal Cert.ReferenceIdeal.S1x128 .f32)
    (r : Fin 50000) (q : Fin 128) :
    biasRelu x b (ix2 r q) = max (x (ix2 r q) + b (ix2 (0 : Fin 1) q)) (FloatOps.ofBits (F := Ideal) .f32 0x00000000#32) := by
  unfold biasRelu
  rw [maximumf_apply, addf_apply]
  rw [broadcastInDim_apply _ Cert.ReferenceIdeal.Gen.bcast_S1x128_S50000x128_0_1 b (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)])]
  rw [broadcastInDim_apply _ Cert.ReferenceIdeal.Gen.bcast_S_S50000x128 (constant (F := Ideal) Cert.ReferenceIdeal.S_ .f32 0x00000000#32) (ix2 r q) (fun a => a.elim0) (fun a => a.elim0)]
  rfl

/-! ## One block -/

/-- What the body computes from a block `x` of 5000 rows and the row `b`, at row `p` of the block and column
    `q`: the same expression, `max (x (p, q) + b (0, q)) 0`. The two reshapes are to the shape the operand
    already has, so they change nothing. -/
theorem payload_apply (x : Vec Ideal S5000x128 .f32) (b : Vec Ideal S1x128 .f32) (p : Fin 5000) (q : Fin 128) :
    k1_pay1 (F := Ideal) x b (ix2 p q) = max (x (ix2 p q) + b (ix2 (0 : Fin 1) q)) (FloatOps.ofBits (F := Ideal) .f32 0x00000000#32) := by
  unfold k1_pay1
  show maximumf (F := Ideal) (addf (F := Ideal) (shapeCast S5000x128 x shapeCasts_S5000x128_S5000x128) (broadcastTo S5000x128 (shapeCast S1x128 b shapeCasts_S1x128_S1x128) broadcasts_S1x128_S5000x128)) (broadcast S5000x128 (Scalar.ofBits .f32 0x00000000#32)) (ix2 p q) = _
  rw [maximumf_apply, addf_apply, broadcast_apply, shapeCast_self, Cert.LibKeepdims.row_broadcast_apply]

/-- The body's one store and its two loads are at offset zero on both axes. -/
theorem origin_eq : (![0, 0] : Fin 2 → Nat) = fun _ => 0 :=
  funext fun a => match a with | ⟨0, _⟩ => rfl | ⟨1, _⟩ => rfl

/-- Where the three blocks lie at point `t`: the block of `x` and the block of the output are both block
    `t` along the rows and block 0 along the columns; the row `b` is always the block at (0, 0). -/
theorem index_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- There are ten points. -/
theorem point_lt (t : Fin cfg1.N) : t.val < 10 := lt_of_lt_of_eq t.isLt N_1

/-- What point `t` writes back is block `t` of `biasRelu` of the two arrays as the call finds them. Row `p` of
    block `t` is row `5000 t + p` of the array, for the input block and for the output block alike, and the bias
    block is the bias array itself; so both sides are `max (x (5000 t + p, q) + b (0, q)) 0`. -/
theorem flushed_eq (c : Dev nD) (t : Fin cfg1.N) :
    (dat1 (F := Ideal) V c).flushed 2 t = ((cfg1.win 2).blk t).view.read (Elt Ideal) (biasRelu (V c main_v45) (V c main_v46)) := by
  show (cfg1.win 2).cut (grid1.coords t) ((dat1 V c).after 2 t) = _
  rw [after1_2]
  unfold out1_2
  rw [View.canon_unit_zero origin_eq]
  simp only [View.ld_unit_zero (S := S5000x128) origin_eq, View.ld_unit_zero (S := S1x128) origin_eq]
  funext j
  obtain ⟨p, q, rfl⟩ : ∃ (p : Fin 5000) (q : Fin 128), j = ix2 p q := ⟨j 0, j 1, eq_ix2 j⟩
  obtain ⟨e00, e01, e10, e11, e20, e21⟩ := index_facts t
  have ht := point_lt t
  have hp : p.val < 5000 := p.isLt
  have hrow : t.val * 5000 + p.val < 50000 := by omega
  -- the output block's entry (p, q) sits at (5000 t + p, q) of the output array
  have hout : ((cfg1.win 2).blk t).view.emb (ix2 p q) = ix2 (⟨t.val * 5000 + p.val, hrow⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  -- the input block's entry (p, q) is the input array's entry at the same place
  have hx : iblk1 V c 0 t (ix2 p q) = V c main_v45 (ix2 (⟨t.val * 5000 + p.val, hrow⟩ : Fin 50000) q) := by
    show V c main_v45 (((cfg1.win 0).blk t).view.emb (ix2 p q)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * q.val = q.val; omega
  -- the bias block's entry (0, q) is the bias array's entry (0, q)
  have hb : iblk1 V c 1 t (ix2 (0 : Fin 1) q) = V c main_v46 (ix2 (0 : Fin 1) q) := by
    show V c main_v46 (((cfg1.win 1).blk t).view.emb (ix2 (0 : Fin 1) q)) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  show k1_pay1 (F := Ideal) (iblk1 V c 0 t) (iblk1 V c 1 t) (ix2 p q)
    = biasRelu (V c main_v45) (V c main_v46) (((cfg1.win 2).blk t).view.emb (ix2 p q))
  rw [payload_apply, hx, hb, hout, biasRelu_apply]

/-! ## The blocks fill the array -/

/-- An entry of the output array lies in point `t`'s block exactly when each of its coordinates lies in the
    block's range on that axis. -/
theorem mem_block (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

/-- Every entry is in some point's block: row `r` belongs to point `r / 5000`, which is below ten because
    `r` is below 50000; the one block along the columns holds all 128 of them. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by rw [show cfg1.N = 10 from N_1]; omega⟩, rfl⟩
  obtain ⟨-, -, -, -, e20, e21⟩ := index_facts t
  refine ⟨t, flush1_2 t, ?_⟩
  rw [mem_block]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-! ## The whole array -/

/-- After the call the output array is, everywhere, the rectified sum of the input array and the bias row:
    every point writes its block of that function, and the blocks leave no entry out. -/
theorem array_eq (c : Dev nD) :
    ((dat1 (F := Ideal) V c).arrAt 2 cfg1.N : Cert.ReferenceIdeal.S50000x128.Idx → EReal)
      = maximumf (F := Ideal) (addf (F := Ideal) (V c main_v45) (broadcastInDim Cert.ReferenceIdeal.S50000x128 ![0, 1] Cert.ReferenceIdeal.Gen.bcast_S1x128_S50000x128_0_1 (V c main_v46)))
          (broadcastInDim Cert.ReferenceIdeal.S50000x128 ![] Cert.ReferenceIdeal.Gen.bcast_S_S50000x128 (constant (F := Ideal) Cert.ReferenceIdeal.S_ .f32 0x00000000#32)) := by
  exact (dat1 (F := Ideal) V c).arrAt_eq_of_cover 2 (biasRelu (V c main_v45) (V c main_v46)) (fun t _ => flushed_eq V c t) covered

end Cert.KernelIdeal.Bias1

end
-- ==== Proof.Bias3.lean ====
import proofs.«132967_j26817775797032_1_alg».proof.Proof.Gen.KernelIdeal.Frame
import proofs.«132967_j26817775797032_1_alg».proof.Proof.RefRead
import proofs.«132967_j26817775797032_1_alg».proof.Proof.LibKeepdims
import Idealize.ShloMosaic.Lib.ValueLayout
import Idealize.ShloMosaic.Lib.Pipeline.Value
import Idealize.ShloMosaic.Lib.ValueIdx
import Idealize.ShloMosaic.PureOps.Ideal.Laws

/-!
A bias step with a rectifier, as one function of whole arrays.

The call walks an array x of 50000 rows and 128 columns in ten blocks of 5000 rows. At every block it also
holds the single row b, adds b to each of the block's rows and keeps the larger of that sum and zero. Block t
of the result is written to rows 5000 t .. 5000 t + 4999 of the output, and these ten row ranges fill the
output. So the output, whole, holds at (r, q) the value max (x (r, q) + b (0, q)) 0.
-/

set_option maxRecDepth 16384

noncomputable section

namespace Cert.KernelIdeal.Bias3

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

open Idealize.ShloMosaic.ValueIdx

/-! ## The function the output array ends up holding -/

/-- Every row of `x` plus the one row of `b`, and then the larger of that and zero, entry by entry. -/
def biasRelu (x : FVec Ideal Cert.ReferenceIdeal.S50000x128 .f32) (b : FVec Ideal Cert.ReferenceIdeal.S1x128 .f32) :
    Cert.ReferenceIdeal.S50000x128.Idx → EReal :=
  maximumf (F := Ideal) (addf (F := Ideal) x (broadcastInDim Cert.ReferenceIdeal.S50000x128 ![0, 1] Cert.ReferenceIdeal.Gen.bcast_S1x128_S50000x128_0_1 b))
    (broadcastInDim Cert.ReferenceIdeal.S50000x128 ![] Cert.ReferenceIdeal.Gen.bcast_S_S50000x128 (constant (F := Ideal) Cert.ReferenceIdeal.S_ .f32 0x00000000#32))

/-- At row `r` and column `q` it is `max (x (r, q) + b (0, q)) 0`: stretching the one row over all rows reads
    row 0 at the same column, and stretching the scalar zero over the array reads the scalar. -/
theorem biasRelu_apply (x : FVec Ideal Cert.ReferenceIdeal.S50000x128 .f32) (b : FVec Ideal Cert.ReferenceIdeal.S1x128 .f32)
    (r : Fin 50000) (q : Fin 128) :
    biasRelu x b (ix2 r q) = max (x (ix2 r q) + b (ix2 (0 : Fin 1) q)) (FloatOps.ofBits (F := Ideal) .f32 0x00000000#32) := by
  unfold biasRelu
  rw [maximumf_apply, addf_apply]
  rw [broadcastInDim_apply _ Cert.ReferenceIdeal.Gen.bcast_S1x128_S50000x128_0_1 b (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)])]
  rw [broadcastInDim_apply _ Cert.ReferenceIdeal.Gen.bcast_S_S50000x128 (constant (F := Ideal) Cert.ReferenceIdeal.S_ .f32 0x00000000#32) (ix2 r q) (fun a => a.elim0) (fun a => a.elim0)]
  rfl

/-! ## One block -/

/-- What the body computes from a block `x` of 5000 rows and the row `b`, at row `p` of the block and column
    `q`: the same expression, `max (x (p, q) + b (0, q)) 0`. The two reshapes are to the shape the operand
    already has, so they change nothing. -/
theorem payload_apply (x : Vec Ideal S5000x128 .f32) (b : Vec Ideal S1x128 .f32) (p : Fin 5000) (q : Fin 128) :
    k3_pay1 (F := Ideal) x b (ix2 p q) = max (x (ix2 p q) + b (ix2 (0 : Fin 1) q)) (FloatOps.ofBits (F := Ideal) .f32 0x00000000#32) := by
  unfold k3_pay1
  show maximumf (F := Ideal) (addf (F := Ideal) (shapeCast S5000x128 x shapeCasts_S5000x128_S5000x128) (broadcastTo S5000x128 (shapeCast S1x128 b shapeCasts_S1x128_S1x128) broadcasts_S1x128_S5000x128)) (broadcast S5000x128 (Scalar.ofBits .f32 0x00000000#32)) (ix2 p q) = _
  rw [maximumf_apply, addf_apply, broadcast_apply, shapeCast_self, Cert.LibKeepdims.row_broadcast_apply]

/-- The body's one store and its two loads are at offset zero on both axes. -/
theorem origin_eq : (![0, 0] : Fin 2 → Nat) = fun _ => 0 :=
  funext fun a => match a with | ⟨0, _⟩ => rfl | ⟨1, _⟩ => rfl

/-- Where the three blocks lie at point `t`: the block of `x` and the block of the output are both block
    `t` along the rows and block 0 along the columns; the row `b` is always the block at (0, 0). -/
theorem index_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- There are ten points. -/
theorem point_lt (t : Fin cfg3.N) : t.val < 10 := lt_of_lt_of_eq t.isLt N_3

/-- What point `t` writes back is block `t` of `biasRelu` of the two arrays as the call finds them. Row `p` of
    block `t` is row `5000 t + p` of the array, for the input block and for the output block alike, and the bias
    block is the bias array itself; so both sides are `max (x (5000 t + p, q) + b (0, q)) 0`. -/
theorem flushed_eq (c : Dev nD) (t : Fin cfg3.N) :
    (dat3 (F := Ideal) V c).flushed 2 t = ((cfg3.win 2).blk t).view.read (Elt Ideal) (biasRelu (V c main_v61) (V c main_v62)) := by
  show (cfg3.win 2).cut (grid3.coords t) ((dat3 V c).after 2 t) = _
  rw [after3_2]
  unfold out3_2
  rw [View.canon_unit_zero origin_eq]
  simp only [View.ld_unit_zero (S := S5000x128) origin_eq, View.ld_unit_zero (S := S1x128) origin_eq]
  funext j
  obtain ⟨p, q, rfl⟩ : ∃ (p : Fin 5000) (q : Fin 128), j = ix2 p q := ⟨j 0, j 1, eq_ix2 j⟩
  obtain ⟨e00, e01, e10, e11, e20, e21⟩ := index_facts t
  have ht := point_lt t
  have hp : p.val < 5000 := p.isLt
  have hrow : t.val * 5000 + p.val < 50000 := by omega
  -- the output block's entry (p, q) sits at (5000 t + p, q) of the output array
  have hout : ((cfg3.win 2).blk t).view.emb (ix2 p q) = ix2 (⟨t.val * 5000 + p.val, hrow⟩ : Fin 50000) q := by
    funext a; apply Fin.ext
    match a with
    | ⟨0, _⟩ => show win3_2.index t (0 : Fin 2) * 5000 + 1 * p.val = t.val * 5000 + p.val; omega
    | ⟨1, _⟩ => show win3_2.index t (1 : Fin 2) * 128 + 1 * q.val = q.val; omega
  -- the input block's entry (p, q) is the input array's entry at the same place
  have hx : iblk3 V c 0 t (ix2 p q) = V c main_v61 (ix2 (⟨t.val * 5000 + p.val, hrow⟩ : Fin 50000) q) := by
    show V c main_v61 (((cfg3.win 0).blk t).view.emb (ix2 p q)) = _
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * q.val = q.val; omega
  -- the bias block's entry (0, q) is the bias array's entry (0, q)
  have hb : iblk3 V c 1 t (ix2 (0 : Fin 1) q) = V c main_v62 (ix2 (0 : Fin 1) q) := by
    show V c main_v62 (((cfg3.win 1).blk t).view.emb (ix2 (0 : Fin 1) q)) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  show k3_pay1 (F := Ideal) (iblk3 V c 0 t) (iblk3 V c 1 t) (ix2 p q)
    = biasRelu (V c main_v61) (V c main_v62) (((cfg3.win 2).blk t).view.emb (ix2 p q))
  rw [payload_apply, hx, hb, hout, biasRelu_apply]

/-! ## The blocks fill the array -/

/-- An entry of the output array lies in point `t`'s block exactly when each of its coordinates lies in the
    block's range on that axis. -/
theorem mem_block (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v63).slice (win3_2.rect t)).set ↔ _
  rw [View.set_slice_whole, Rect.mem_set_unit]
  exact Iff.rfl

/-- Every entry is in some point's block: row `r` belongs to point `r / 5000`, which is below ten because
    `r` is below 50000; the one block along the columns holds all 128 of them. -/
theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ : ∃ t : Fin cfg3.N, t.val = (i 0).val / 5000 :=
    ⟨⟨(i 0).val / 5000, by rw [show cfg3.N = 10 from N_3]; omega⟩, rfl⟩
  obtain ⟨-, -, -, -, e20, e21⟩ := index_facts t
  refine ⟨t, flush3_2 t, ?_⟩
  rw [mem_block]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-! ## The whole array -/

/-- After the call the output array is, everywhere, the rectified sum of the input array and the bias row:
    every point writes its block of that function, and the blocks leave no entry out. -/
theorem array_eq (c : Dev nD) :
    ((dat3 (F := Ideal) V c).arrAt 2 cfg3.N : Cert.ReferenceIdeal.S50000x128.Idx → EReal)
      = maximumf (F := Ideal) (addf (F := Ideal) (V c main_v61) (broadcastInDim Cert.ReferenceIdeal.S50000x128 ![0, 1] Cert.ReferenceIdeal.Gen.bcast_S1x128_S50000x128_0_1 (V c main_v62)))
          (broadcastInDim Cert.ReferenceIdeal.S50000x128 ![] Cert.ReferenceIdeal.Gen.bcast_S_S50000x128 (constant (F := Ideal) Cert.ReferenceIdeal.S_ .f32 0x00000000#32)) := by
  exact (dat3 (F := Ideal) V c).arrAt_eq_of_cover 2 (biasRelu (V c main_v61) (V c main_v62)) (fun t _ => flushed_eq V c t) covered

end Cert.KernelIdeal.Bias3

end
-- ==== Proof.Bias5.lean ====
import proofs.«132967_j26817775797032_1_alg».proof.Proof.Gen.KernelIdeal.Frame
import proofs.«132967_j26817775797032_1_alg».proof.Proof.RefRead
import proofs.«132967_j26817775797032_1_alg».proof.Proof.LibKeepdims
import Idealize.ShloMosaic.Lib.ValueLayout
import Idealize.ShloMosaic.Lib.Pipeline.Value
import Idealize.ShloMosaic.Lib.ValueIdx
import Idealize.ShloMosaic.PureOps.Ideal.Laws

/-!
The last bias step, as one function of whole arrays.

The call walks an array x of 50000 rows and 16 columns in ten blocks of 5000 rows. At every block it also holds
the single row b and adds b to each of the block's rows; nothing is rectified here. Block t of the result is
written to rows 5000 t .. 5000 t + 4999 of the output, and these ten row ranges fill the output. So the
output, whole, holds at (r, q) the value x (r, q) + b (0, q).
-/

set_option maxRecDepth 16384

noncomputable section

namespace Cert.KernelIdeal.Bias5

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

open Idealize.ShloMosaic.ValueIdx

/-! ## The function the output array ends up holding -/

/-- Every row of `x` plus the one row of `b`, entry by entry. -/
def biasAdd (x : FVec Ideal Cert.ReferenceIdeal.S50000x16 .f32) (b : FVec Ideal Cert.ReferenceIdeal.S1x16 .f32) :
    Cert.ReferenceIdeal.S50000x16.Idx → EReal :=
  addf (F := Ideal) (φ := .f32) x (broadcastInDim Cert.ReferenceIdeal.S50000x16 ![0, 1] Cert.ReferenceIdeal.Gen.bcast_S1x16_S50000x16_0_1 b)

/-- At row `r` and column `q` it is `x (r, q) + b (0, q)`: stretching the one row over all rows reads row 0 at
    the same column. -/
theorem biasAdd_apply (x : FVec Ideal Cert.ReferenceIdeal.S50000x16 .f32) (b : FVec Ideal Cert.ReferenceIdeal.S1x16 .f32)
    (r : Fin 50000) (q : Fin 16) :
    biasAdd x b (ix2 r q) = x (ix2 r q) + b (ix2 (0 : Fin 1) q) := by
  unfold biasAdd
  rw [addf_apply]
  rw [broadcastInDim_apply _ Cert.ReferenceIdeal.Gen.bcast_S1x16_S50000x16_0_1 b (ix2 r q) (ix2 (0 : Fin 1) q) (fun a => match a with
      | ⟨0, _⟩ => by show 0 = if (1 : Nat) = 1 then 0 else r.val; rw [if_pos rfl]
      | ⟨1, _⟩ => by show q.val = if (16 : Nat) = 1 then 0 else q.val; rw [if_neg (by decide)])]

/-! ## One block -/

/-- What the body computes from a block `x` of 5000 rows and the row `b`, at row `p` of the block and column
    `q`: the same sum, `x (p, q) + b (0, q)`. The two reshapes are to the shape the operand already has, so
    they change nothing. -/
theorem payload_apply (x : Vec Ideal S5000x16 .f32) (b : Vec Ideal S1x16 .f32) (p : Fin 5000) (q : Fin 16) :
    k5_pay1 (F := Ideal) x b (ix2 p q) = x (ix2 p q) + b (ix2 (0 : Fin 1) q) := by
  unfold k5_pay1
  show addf (F := Ideal) (φ := .f32) (shapeCast S5000x16 x shapeCasts_S5000x16_S5000x16) (broadcastTo S5000x16 (shapeCast S1x16 b shapeCasts_S1x16_S1x16) broadcasts_S1x16_S5000x16) (ix2 p q) = _
  rw [addf_apply, shapeCast_self, Cert.LibKeepdims.row_broadcast_apply]

/-- The body's one store and its two loads are at offset zero on both axes. -/
theorem origin_eq : (![0, 0] : Fin 2 → Nat) = fun _ => 0 :=
  funext fun a => match a with | ⟨0, _⟩ => rfl | ⟨1, _⟩ => rfl

/-- Where the three blocks lie at point `t`: the block of `x` and the block of the output are both block
    `t` along the rows and block 0 along the columns; the row `b` is always the block at (0, 0). -/
theorem index_facts : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- There are ten points. -/
theorem point_lt (t : Fin cfg5.N) : t.val < 10 := lt_of_lt_of_eq t.isLt N_5

/-- What point `t` writes back is block `t` of `biasAdd` of the two arrays as the call finds them. Row `p` of
    block `t` is row `5000 t + p` of the array, for the input block and for the output block alike, and the bias
    block is the bias array itself; so both sides are `x (5000 t + p, q) + b (0, q)`. -/
theorem flushed_eq (c : Dev nD) (t : Fin cfg5.N) :
    (dat5 (F := Ideal) V c).flushed 2 t = ((cfg5.win 2).blk t).view.read (Elt Ideal) (biasAdd (V c main_v77) (V c main_v78)) := by
  show (cfg5.win 2).cut (grid5.coords t) ((dat5 V c).after 2 t) = _
  rw [after5_2]
  unfold out5_2
  rw [View.canon_unit_zero origin_eq]
  simp only [View.ld_unit_zero (S := S5000x16) origin_eq, View.ld_unit_zero (S := S1x16) origin_eq]
  funext j
  obtain ⟨p, q, rfl⟩ : ∃ (p : Fin 5000) (q : Fin 16), j = ix2 p q := ⟨j 0, j 1, eq_ix2 j⟩
  obtain ⟨e00, e01, e10, e11, e20, e21⟩ := index_facts t
  have ht := point_lt t
  have hp : p.val < 5000 := p.isLt
  have hrow : t.val * 5000 + p.val < 50000 := by omega
  -- the output block's entry (p, q) sits at (5000 t + p, q) of the output array
  have hout : ((cfg5.win 2).blk t).view.emb (ix2 p q) = ix2 (⟨t.val * 5000 + p.val, hrow⟩ : Fin 50000) q := by
    funext a; apply Fin.ext
    match a with
    | ⟨0, _⟩ => show win5_2.index t (0 : Fin 2) * 5000 + 1 * p.val = t.val * 5000 + p.val; omega
    | ⟨1, _⟩ => show win5_2.index t (1 : Fin 2) * 16 + 1 * q.val = q.val; omega
  -- the input block's entry (p, q) is the input array's entry at the same place
  have hx : iblk5 V c 0 t (ix2 p q) = V c main_v77 (ix2 (⟨t.val * 5000 + p.val, hrow⟩ : Fin 50000) q) := by
    show V c main_v77 (((cfg5.win 0).blk t).view.emb (ix2 p q)) = _
    refine congrArg _ (funext fun a => Fin.ext ?_)
    match a with
    | ⟨0, _⟩ => show win5_0.index t (0 : Fin 2) * 5000 + 1 * p.val = t.val * 5000 + p.val; omega
    | ⟨1, _⟩ => show win5_0.index t (1 : Fin 2) * 16 + 1 * q.val = q.val; omega
  -- the bias block's entry (0, q) is the bias array's entry (0, q)
  have hb : iblk5 V c 1 t (ix2 (0 : Fin 1) q) = V c main_v78 (ix2 (0 : Fin 1) q) := by
    show V c main_v78 (((cfg5.win 1).blk t).view.emb (ix2 (0 : Fin 1) q)) = _
    refine congrArg _ (funext fun a => Fin.ext ?_)
    match a with
    | ⟨0, _⟩ => show win5_1.index t (0 : Fin 2) * 1 + 1 * 0 = 0; omega
    | ⟨1, _⟩ => show win5_1.index t (1 : Fin 2) * 16 + 1 * q.val = q.val; omega
  show k5_pay1 (F := Ideal) (iblk5 V c 0 t) (iblk5 V c 1 t) (ix2 p q)
    = biasAdd (V c main_v77) (V c main_v78) (((cfg5.win 2).blk t).view.emb (ix2 p q))
  rw [payload_apply, hx, hb, hout, biasAdd_apply]

/-! ## The blocks fill the array -/

/-- An entry of the output array lies in point `t`'s block exactly when each of its coordinates lies in the
    block's range on that axis. -/
theorem mem_block (t : Fin cfg5.N) (i : S50000x16.Idx) :
    i ∈ ((cfg5.win 2).blk t).view.set ↔ ∀ a : Fin 2, win5_2.index t a * S5000x16.size a ≤ (i a).val
      ∧ (i a).val < win5_2.index t a * S5000x16.size a + S5000x16.size a := by
  show i ∈ ((View.whole main_v79).slice (win5_2.rect t)).set ↔ _
  rw [View.set_slice_whole, Rect.mem_set_unit]
  exact Iff.rfl

/-- Every entry is in some point's block: row `r` belongs to point `r / 5000`, which is below ten because
    `r` is below 50000; the one block along the columns holds all 16 of them. -/
theorem covered (i : S50000x16.Idx) :
    ∃ t : Fin cfg5.N, (cfg5.win 2).flush t = true ∧ i ∈ ((cfg5.win 2).blk t).view.set := by
  have hi0 : (i 0).val < 50000 := (i 0).isLt
  have hi1 : (i 1).val < 16 := (i 1).isLt
  obtain ⟨t, ht⟩ : ∃ t : Fin cfg5.N, t.val = (i 0).val / 5000 :=
    ⟨⟨(i 0).val / 5000, by rw [show cfg5.N = 10 from N_5]; omega⟩, rfl⟩
  obtain ⟨-, -, -, -, e20, e21⟩ := index_facts t
  refine ⟨t, flush5_2 t, ?_⟩
  rw [mem_block]
  intro a
  match a with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 16 ≤ (i 1).val ∧ (i 1).val < win5_2.index t (1 : Fin 2) * 16 + 16
    omega

/-! ## The whole array -/

/-- After the call the output array is, everywhere, the sum of the input array and the bias row: every point
    writes its block of that function, and the blocks leave no entry out. -/
theorem array_eq (c : Dev nD) :
    ((dat5 (F := Ideal) V c).arrAt 2 cfg5.N : Cert.ReferenceIdeal.S50000x16.Idx → EReal)
      = addf (F := Ideal) (φ := .f32) (V c main_v77) (broadcastInDim Cert.ReferenceIdeal.S50000x16 ![0, 1] Cert.ReferenceIdeal.Gen.bcast_S1x16_S50000x16_0_1 (V c main_v78)) := by
  exact (dat5 (F := Ideal) V c).arrAt_eq_of_cover 2 (biasAdd (V c main_v77) (V c main_v78)) (fun t _ => flushed_eq V c t) covered

end Cert.KernelIdeal.Bias5

end
-- ==== Proof.Layers.lean ====
/-
  The kernel program's result, layer by layer, against the reference's stages.

  Both programs compute three graph-convolution layers over the same edge arrays. A layer multiplies the node
  features by a weight matrix, aggregates over the edges (every edge carries its source node's row, scaled by the
  edge's coefficient, into its target node) and adds a bias, the first two layers then taking the maximum with zero.
  The kernel program does the product and the bias step in tiled kernel regions and the aggregation on the host; the
  reference does all of it on the host. At the ideal values a tiled product into a zero accumulator IS the whole
  `dot_general` (the change to a shorter float format before it is the identity), and the tiled bias step IS the
  broadcast sum and maximum; the aggregation is the same operations on both sides. So each boundary of the kernel
  program's run holds the reference's stage of the same name, by induction along the run: no algebraic law beyond
  these identifications is used, and the precondition on the inputs is never opened.

  One small difference of layout: the kernel program recasts the bias vector [n] as a one-row array [1, n], the
  reference broadcasts it along the second axis; both read the vector at the column (`row_of_vector`).
-/
import proofs.«132967_j26817775797032_1_alg».proof.Proof.Hosts
import proofs.«132967_j26817775797032_1_alg».proof.Proof.KernelRun
import proofs.«132967_j26817775797032_1_alg».proof.Proof.Product0
import proofs.«132967_j26817775797032_1_alg».proof.Proof.Product2
import proofs.«132967_j26817775797032_1_alg».proof.Proof.Product4
import proofs.«132967_j26817775797032_1_alg».proof.Proof.Bias1
import proofs.«132967_j26817775797032_1_alg».proof.Proof.Bias3
import proofs.«132967_j26817775797032_1_alg».proof.Proof.Bias5
import Idealize.ShloMosaic.Lib.Pipeline.Value
import Idealize.ShloMosaic.Lib.ValueIdx

set_option maxRecDepth 16384

noncomputable section

namespace Cert.KernelIdeal.Layers

open Cert.KernelIdeal Cert.KernelIdeal.Gen Cert.KernelIdeal.Hosts
open Idealize.ShloMosaic Idealize.ShloMosaic.TcCoe Idealize.SL.Sem

/-! ## The bias vector as a one-row array -/

section Row
variable {α : Type}
/-- A vector [n] recast as a one-row array [1, n] is the vector broadcast along the second axis: both read the vector
    at the column. -/
theorem row_of_vector {n : Nat} (hn : n ≠ 1) (x : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ x h = broadcastInDim ⟨2, ![1, n]⟩ ![1] hb x := by
  funext j
  refine (shapeCast_addUnit_apply ![n] x h j).trans ?_
  refine (broadcastInDim_apply ![1] hb x j (fun a => j a.succ) fun a => ?_).symm
  match a with
  | ⟨0, _⟩ =>
    show (j 1).val = if n = 1 then 0 else (j 1).val
    rw [if_neg hn]
end Row

/-! ## The reference's stages over the shared aggregation -/

section Stages
variable {F : FTy → Type} [FloatOps F]

theorem ref_v32 (x0 : (⟨S50000x256, .f32⟩ : BufTy).Contents (Elt F)) (x2 : (⟨S256x128, .f32⟩ : BufTy).Contents (Elt F)) :
    Cert.ReferenceIdeal.ReadP.val_main_v32 (F := F) x0 x2 = Host.dotGeneral Cert.ReferenceIdeal.dot_S50000x256_S256x128_S50000x128_1_0_0_1_n_n none x0 x2 := rfl

theorem ref_v45 (x0 : (⟨S50000x256, .f32⟩ : BufTy).Contents (Elt F)) (x1 : (⟨S2x640000, .i32⟩ : BufTy).Contents (Elt F)) (x2 : (⟨S256x128, .f32⟩ : BufTy).Contents (Elt F)) :
    Cert.ReferenceIdeal.ReadP.val_main_v45 (F := F) x0 x1 x2
      = aggregate128 (Cert.ReferenceIdeal.ReadP.val_main_v32 (F := F) x0 x2) (Cert.ReferenceIdeal.ReadP.val_main_v3 (F := F) x1) (Cert.ReferenceIdeal.ReadP.val_main_v6 (F := F) x1) (Cert.ReferenceIdeal.ReadP.val_main_v31 (F := F) x1) := rfl

theorem ref_v49 (x0 : (⟨S50000x256, .f32⟩ : BufTy).Contents (Elt F)) (x1 : (⟨S2x640000, .i32⟩ : BufTy).Contents (Elt F)) (x2 : (⟨S256x128, .f32⟩ : BufTy).Contents (Elt F)) (x3 : (⟨S128, .f32⟩ : BufTy).Contents (Elt F)) :
    Cert.ReferenceIdeal.ReadP.val_main_v49 (F := F) x0 x1 x2 x3
      = maximumf (addf (Cert.ReferenceIdeal.ReadP.val_main_v45 (F := F) x0 x1 x2)
          (broadcastInDim Cert.ReferenceIdeal.S50000x128 ![0, 1] Cert.ReferenceIdeal.Gen.bcast_S1x128_S50000x128_0_1 (broadcastInDim Cert.ReferenceIdeal.S1x128 ![1] Cert.ReferenceIdeal.Gen.bcast_S128_S1x128_1 x3)))
          (broadcastInDim Cert.ReferenceIdeal.S50000x128 ![] Cert.ReferenceIdeal.Gen.bcast_S_S50000x128 (constant (F := F) Cert.ReferenceIdeal.S_ .f32 0x00000000#32)) := rfl

theorem ref_v50 (x0 : (⟨S50000x256, .f32⟩ : BufTy).Contents (Elt F)) (x1 : (⟨S2x640000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) :
    Cert.ReferenceIdeal.ReadP.val_main_v50 (F := F) x0 x1 x2 x3 x4
      = Host.dotGeneral Cert.ReferenceIdeal.dot_S50000x128_S128x128_S50000x128_1_0_0_1_n_n none (Cert.ReferenceIdeal.ReadP.val_main_v49 (F := F) x0 x1 x2 x3) x4 := rfl

theorem ref_v63 (x0 : (⟨S50000x256, .f32⟩ : BufTy).Contents (Elt F)) (x1 : (⟨S2x640000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) :
    Cert.ReferenceIdeal.ReadP.val_main_v63 (F := F) x0 x1 x2 x3 x4
      = aggregate128 (Cert.ReferenceIdeal.ReadP.val_main_v50 (F := F) x0 x1 x2 x3 x4) (Cert.ReferenceIdeal.ReadP.val_main_v3 (F := F) x1) (Cert.ReferenceIdeal.ReadP.val_main_v6 (F := F) x1) (Cert.ReferenceIdeal.ReadP.val_main_v31 (F := F) x1) := rfl

theorem ref_v67 (x0 : (⟨S50000x256, .f32⟩ : BufTy).Contents (Elt F)) (x1 : (⟨S2x640000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) :
    Cert.ReferenceIdeal.ReadP.val_main_v67 (F := F) x0 x1 x2 x3 x4 x5
      = maximumf (addf (Cert.ReferenceIdeal.ReadP.val_main_v63 (F := F) x0 x1 x2 x3 x4)
          (broadcastInDim Cert.ReferenceIdeal.S50000x128 ![0, 1] Cert.ReferenceIdeal.Gen.bcast_S1x128_S50000x128_0_1 (broadcastInDim Cert.ReferenceIdeal.S1x128 ![1] Cert.ReferenceIdeal.Gen.bcast_S128_S1x128_1 x5)))
          (broadcastInDim Cert.ReferenceIdeal.S50000x128 ![] Cert.ReferenceIdeal.Gen.bcast_S_S50000x128 (constant (F := F) Cert.ReferenceIdeal.S_ .f32 0x00000000#32)) := rfl

theorem ref_v68 (x0 : (⟨S50000x256, .f32⟩ : BufTy).Contents (Elt F)) (x1 : (⟨S2x640000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x16, .f32⟩ : BufTy).Contents (Elt F)) :
    Cert.ReferenceIdeal.ReadP.val_main_v68 (F := F) x0 x1 x2 x3 x4 x5 x6
      = Host.dotGeneral Cert.ReferenceIdeal.dot_S50000x128_S128x16_S50000x16_1_0_0_1_n_n none (Cert.ReferenceIdeal.ReadP.val_main_v67 (F := F) x0 x1 x2 x3 x4 x5) x6 := rfl

theorem ref_v81 (x0 : (⟨S50000x256, .f32⟩ : BufTy).Contents (Elt F)) (x1 : (⟨S2x640000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x16, .f32⟩ : BufTy).Contents (Elt F)) :
    Cert.ReferenceIdeal.ReadP.val_main_v81 (F := F) x0 x1 x2 x3 x4 x5 x6
      = aggregate16 (Cert.ReferenceIdeal.ReadP.val_main_v68 (F := F) x0 x1 x2 x3 x4 x5 x6) (Cert.ReferenceIdeal.ReadP.val_main_v3 (F := F) x1) (Cert.ReferenceIdeal.ReadP.val_main_v6 (F := F) x1) (Cert.ReferenceIdeal.ReadP.val_main_v31 (F := F) x1) := rfl

theorem ref_v84 (x0 : (⟨S50000x256, .f32⟩ : BufTy).Contents (Elt F)) (x1 : (⟨S2x640000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x16, .f32⟩ : BufTy).Contents (Elt F)) (x7 : (⟨S16, .f32⟩ : BufTy).Contents (Elt F)) :
    Cert.ReferenceIdeal.ReadP.val_main_v84 (F := F) x0 x1 x2 x3 x4 x5 x6 x7
      = addf (Cert.ReferenceIdeal.ReadP.val_main_v81 (F := F) x0 x1 x2 x3 x4 x5 x6)
          (broadcastInDim Cert.ReferenceIdeal.S50000x16 ![0, 1] Cert.ReferenceIdeal.Gen.bcast_S1x16_S50000x16_0_1 (broadcastInDim Cert.ReferenceIdeal.S1x16 ![1] Cert.ReferenceIdeal.Gen.bcast_S16_S1x16_1 x7)) := rfl
end Stages

/-! ## Carrying a buffer from one region's entry to a later one -/

section Carry
variable {F : FTy → Type} [FloatOps F] (m : (ℓ : Loc nD τ sig) → Buf (Elt F) ℓ) (ρ : Dev nD → PrngReg)

/-- Past the first product: a region changes only its own arrays. -/
theorem carry_W4 (c : Dev nD) (b : Ref sig .tc) (h0 : ∀ w, Pipeline.arrRef spec0 w ≠ b) :
    W4 m ρ c (Proc.devRef .tc b) = W3 m ρ c (Proc.devRef .tc b) := W4_of_ne m ρ c b h0

/-- From there past the next stretch, the first bias and the second product. -/
theorem carry_W7 (c : Dev nD) (b : Ref sig .tc) (h2 : ∀ w, Pipeline.arrRef spec2 w ≠ b) (h1 : ∀ w, Pipeline.arrRef spec1 w ≠ b)
    (hw : b ∉ written1) : W7 m ρ c (Proc.devRef .tc b) = W4 m ρ c (Proc.devRef .tc b) :=
  (W7_of_ne m ρ c b h2).trans ((W6_of_ne m ρ c b h1).trans (W5_keeps m ρ c b hw))

/-- And past the stretch after it, the second bias and the third product. -/
theorem carry_W10 (c : Dev nD) (b : Ref sig .tc) (h4 : ∀ w, Pipeline.arrRef spec4 w ≠ b) (h3 : ∀ w, Pipeline.arrRef spec3 w ≠ b)
    (hw : b ∉ written3) : W10 m ρ c (Proc.devRef .tc b) = W7 m ρ c (Proc.devRef .tc b) :=
  (W10_of_ne m ρ c b h4).trans ((W9_of_ne m ρ c b h3).trans (W8_keeps m ρ c b hw))

/-! Every edge's source, target and coefficient, where the three aggregations read them. -/
theorem W4_v3 (c : Dev nD) : W4 m ρ c (Proc.devRef .tc main_v3) = Cert.ReferenceIdeal.ReadP.val_main_v3 (F := F) (m ((c : Thread nD τ).loc main_arg1)) :=
  (carry_W4 m ρ c main_v3 (by decide)).trans (W3_v3 m ρ c)
theorem W7_v3 (c : Dev nD) : W7 m ρ c (Proc.devRef .tc main_v3) = Cert.ReferenceIdeal.ReadP.val_main_v3 (F := F) (m ((c : Thread nD τ).loc main_arg1)) :=
  (carry_W7 m ρ c main_v3 (by decide) (by decide) (by decide)).trans (W4_v3 m ρ c)
theorem W10_v3 (c : Dev nD) : W10 m ρ c (Proc.devRef .tc main_v3) = Cert.ReferenceIdeal.ReadP.val_main_v3 (F := F) (m ((c : Thread nD τ).loc main_arg1)) :=
  (carry_W10 m ρ c main_v3 (by decide) (by decide) (by decide)).trans (W7_v3 m ρ c)
theorem W4_v6 (c : Dev nD) : W4 m ρ c (Proc.devRef .tc main_v6) = Cert.ReferenceIdeal.ReadP.val_main_v6 (F := F) (m ((c : Thread nD τ).loc main_arg1)) :=
  (carry_W4 m ρ c main_v6 (by decide)).trans (W3_v6 m ρ c)
theorem W7_v6 (c : Dev nD) : W7 m ρ c (Proc.devRef .tc main_v6) = Cert.ReferenceIdeal.ReadP.val_main_v6 (F := F) (m ((c : Thread nD τ).loc main_arg1)) :=
  (carry_W7 m ρ c main_v6 (by decide) (by decide) (by decide)).trans (W4_v6 m ρ c)
theorem W10_v6 (c : Dev nD) : W10 m ρ c (Proc.devRef .tc main_v6) = Cert.ReferenceIdeal.ReadP.val_main_v6 (F := F) (m ((c : Thread nD τ).loc main_arg1)) :=
  (carry_W10 m ρ c main_v6 (by decide) (by decide) (by decide)).trans (W7_v6 m ρ c)
theorem W4_v31 (c : Dev nD) : W4 m ρ c (Proc.devRef .tc main_v31) = Cert.ReferenceIdeal.ReadP.val_main_v31 (F := F) (m ((c : Thread nD τ).loc main_arg1)) :=
  (carry_W4 m ρ c main_v31 (by decide)).trans (W3_v31 m ρ c)
theorem W7_v31 (c : Dev nD) : W7 m ρ c (Proc.devRef .tc main_v31) = Cert.ReferenceIdeal.ReadP.val_main_v31 (F := F) (m ((c : Thread nD τ).loc main_arg1)) :=
  (carry_W7 m ρ c main_v31 (by decide) (by decide) (by decide)).trans (W4_v31 m ρ c)
theorem W10_v31 (c : Dev nD) : W10 m ρ c (Proc.devRef .tc main_v31) = Cert.ReferenceIdeal.ReadP.val_main_v31 (F := F) (m ((c : Thread nD τ).loc main_arg1)) :=
  (carry_W10 m ρ c main_v31 (by decide) (by decide) (by decide)).trans (W7_v31 m ρ c)

/-! The later arguments, as launched, where they are read. -/
theorem W4_arg (c : Dev nD) (b : Ref sig .tc) (h : ∀ w, Pipeline.arrRef spec0 w ≠ b) (h0 : b ∉ written0) (h1 : b ∉ written0_1)
    (h2 : b ∉ written0_2) : W4 m ρ c (Proc.devRef .tc b) = m ((c : Thread nD τ).loc b) :=
  (carry_W4 m ρ c b h).trans (W3_arg m ρ c b h0 h1 h2)
theorem W4_arg3 (c : Dev nD) : W4 m ρ c (Proc.devRef .tc main_arg3) = m ((c : Thread nD τ).loc main_arg3) :=
  W4_arg m ρ c main_arg3 (by decide) (by decide) (by decide) (by decide)
theorem W6_arg4 (c : Dev nD) : W6 m ρ c (Proc.devRef .tc main_arg4) = m ((c : Thread nD τ).loc main_arg4) :=
  (W6_of_ne m ρ c main_arg4 (by decide)).trans ((W5_keeps m ρ c main_arg4 (by decide)).trans (W4_arg m ρ c main_arg4 (by decide) (by decide) (by decide) (by decide)))
theorem W7_arg5 (c : Dev nD) : W7 m ρ c (Proc.devRef .tc main_arg5) = m ((c : Thread nD τ).loc main_arg5) :=
  (carry_W7 m ρ c main_arg5 (by decide) (by decide) (by decide)).trans (W4_arg m ρ c main_arg5 (by decide) (by decide) (by decide) (by decide))
theorem W9_arg6 (c : Dev nD) : W9 m ρ c (Proc.devRef .tc main_arg6) = m ((c : Thread nD τ).loc main_arg6) :=
  (W9_of_ne m ρ c main_arg6 (by decide)).trans ((W8_keeps m ρ c main_arg6 (by decide)).trans
    ((carry_W7 m ρ c main_arg6 (by decide) (by decide) (by decide)).trans (W4_arg m ρ c main_arg6 (by decide) (by decide) (by decide) (by decide))))
theorem W10_arg7 (c : Dev nD) : W10 m ρ c (Proc.devRef .tc main_arg7) = m ((c : Thread nD τ).loc main_arg7) :=
  (carry_W10 m ρ c main_arg7 (by decide) (by decide) (by decide)).trans
    ((carry_W7 m ρ c main_arg7 (by decide) (by decide) (by decide)).trans (W4_arg m ρ c main_arg7 (by decide) (by decide) (by decide) (by decide)))
end Carry

/-! ## The run's boundaries, layer by layer, at the ideal values -/

variable (m : (ℓ : Loc nD τ sig) → Buf (Elt Ideal) ℓ) (ρ : Dev nD → PrngReg)

/-- The first product's output is the reference's first `dot_general`. -/
theorem layer_v32 (c : Dev nD) :
    W4 m ρ c (Proc.devRef .tc main_v32) = Cert.ReferenceIdeal.ReadP.val_main_v32 (F := Ideal) (m ((c : Thread nD τ).loc main_arg0)) (m ((c : Thread nD τ).loc main_arg2)) := by
  refine (W4_arr m ρ c 2).trans ((Product0.array_eq (V3 m ρ) c).trans ?_)
  dsimp only [V3]
  rw [W3_arg m ρ c main_arg0 (by decide) (by decide) (by decide), W3_arg m ρ c main_arg2 (by decide) (by decide) (by decide), ref_v32]

/-- The first aggregation. -/
theorem layer_v45 (c : Dev nD) :
    W5 m ρ c (Proc.devRef .tc main_v45) = Cert.ReferenceIdeal.ReadP.val_main_v45 (F := Ideal) (m ((c : Thread nD τ).loc main_arg0)) (m ((c : Thread nD τ).loc main_arg1)) (m ((c : Thread nD τ).loc main_arg2)) := by
  rw [W5_v45 m ρ c, layer_v32 m ρ c, W4_v3 m ρ c, W4_v6 m ρ c, W4_v31 m ρ c, ref_v45]

/-- The first bias as a row. -/
theorem layer_v46 (c : Dev nD) :
    W5 m ρ c (Proc.devRef .tc main_v46) = broadcastInDim Cert.ReferenceIdeal.S1x128 ![1] Cert.ReferenceIdeal.Gen.bcast_S128_S1x128_1 (m ((c : Thread nD τ).loc main_arg3)) := by
  rw [W5_v46 m ρ c, W4_arg3 m ρ c]
  exact row_of_vector (by decide) _ _ _

/-- The first bias and maximum with zero. -/
theorem layer_v47 (c : Dev nD) :
    W6 m ρ c (Proc.devRef .tc main_v47) = Cert.ReferenceIdeal.ReadP.val_main_v49 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((Bias1.array_eq (V5 m ρ) c).trans ?_)
  dsimp only [V5]
  rw [layer_v45 m ρ c, layer_v46 m ρ c, ref_v49]

/-- The second product. -/
theorem layer_v48 (c : Dev nD) :
    W7 m ρ c (Proc.devRef .tc main_v48) = Cert.ReferenceIdeal.ReadP.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Product2.array_eq (V6 m ρ) c).trans ?_)
  dsimp only [V6]
  rw [layer_v47 m ρ c, W6_arg4 m ρ c, ref_v50]

/-- The second aggregation. -/
theorem layer_v61 (c : Dev nD) :
    W8 m ρ c (Proc.devRef .tc main_v61) = Cert.ReferenceIdeal.ReadP.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [W8_v61 m ρ c, layer_v48 m ρ c, W7_v3 m ρ c, W7_v6 m ρ c, W7_v31 m ρ c, ref_v63]

/-- The second bias as a row. -/
theorem layer_v62 (c : Dev nD) :
    W8 m ρ c (Proc.devRef .tc main_v62) = broadcastInDim Cert.ReferenceIdeal.S1x128 ![1] Cert.ReferenceIdeal.Gen.bcast_S128_S1x128_1 (m ((c : Thread nD τ).loc main_arg5)) := by
  rw [W8_v62 m ρ c, W7_arg5 m ρ c]
  exact row_of_vector (by decide) _ _ _

/-- The second bias and maximum with zero. -/
theorem layer_v63 (c : Dev nD) :
    W9 m ρ c (Proc.devRef .tc main_v63) = Cert.ReferenceIdeal.ReadP.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((Bias3.array_eq (V8 m ρ) c).trans ?_)
  dsimp only [V8]
  rw [layer_v61 m ρ c, layer_v62 m ρ c, ref_v67]

/-- The third product. -/
theorem layer_v64 (c : Dev nD) :
    W10 m ρ c (Proc.devRef .tc main_v64) = Cert.ReferenceIdeal.ReadP.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 2).trans ((Product4.array_eq (V9 m ρ) c).trans ?_)
  dsimp only [V9]
  rw [layer_v63 m ρ c, W9_arg6 m ρ c, ref_v68]

/-- The third aggregation, at width 16. -/
theorem layer_v77 (c : Dev nD) :
    W11 m ρ c (Proc.devRef .tc main_v77) = Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [W11_v77 m ρ c, layer_v64 m ρ c, W10_v3 m ρ c, W10_v6 m ρ c, W10_v31 m ρ c, ref_v81]

/-- The third bias as a row. -/
theorem layer_v78 (c : Dev nD) :
    W11 m ρ c (Proc.devRef .tc main_v78) = broadcastInDim Cert.ReferenceIdeal.S1x16 ![1] Cert.ReferenceIdeal.Gen.bcast_S16_S1x16_1 (m ((c : Thread nD τ).loc main_arg7)) := by
  rw [W11_v78 m ρ c, W10_arg7 m ρ c]
  exact row_of_vector (by decide) _ _ _

/-- THE RESULT: the array the last region leaves is the reference's last stage of the launched arguments. -/
theorem result_eq (c : Dev nD) :
    W12 m ρ c (Proc.devRef .tc main_v79) = Cert.ReferenceIdeal.ReadP.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 2).trans ((Bias5.array_eq (V11 m ρ) c).trans ?_)
  dsimp only [V11]
  rw [layer_v77 m ρ c, layer_v78 m ρ c, ref_v84]

end Cert.KernelIdeal.Layers

end
-- ==== Proof.lean ====
/-
  The certificate of a three-layer graph convolution: a kernel program whose matrix products and bias steps run in
  six tiled kernel regions, the aggregation over the edges between them on the host, against a reference that does
  everything on the host.

  The three frames: the kernel program's two (as printed, and read at the ideal values) are its run through the six
  regions and the host stretches between them; the reference's is its run with the result dropped. The idealization
  rewrote no operation, so there is nothing to preserve. The value claim: at the ideal values the kernel program's
  result array is the reference's last stage of the launched arguments (Proof/Layers.lean, boundary by boundary), and
  so is the reference's own result, of arguments that agree.
-/
import proofs.«132967_j26817775797032_1_alg».proof.Defs
import proofs.«132967_j26817775797032_1_alg».proof.Proof.Gen.Kernel
import proofs.«132967_j26817775797032_1_alg».proof.Proof.Gen.Kernel.Skeleton
import proofs.«132967_j26817775797032_1_alg».proof.Proof.Gen.Kernel.Launch
import proofs.«132967_j26817775797032_1_alg».proof.Proof.Gen.Kernel.Points
import proofs.«132967_j26817775797032_1_alg».proof.Proof.Gen.Kernel.Frame
import proofs.«132967_j26817775797032_1_alg».proof.Proof.Gen.KernelIdeal
import proofs.«132967_j26817775797032_1_alg».proof.Proof.Gen.KernelIdeal.Skeleton
import proofs.«132967_j26817775797032_1_alg».proof.Proof.Gen.KernelIdeal.Launch
import proofs.«132967_j26817775797032_1_alg».proof.Proof.Gen.KernelIdeal.Points
import proofs.«132967_j26817775797032_1_alg».proof.Proof.Gen.KernelIdeal.Frame
import proofs.«132967_j26817775797032_1_alg».proof.Proof.Gen.ReferenceIdeal
import proofs.«132967_j26817775797032_1_alg».proof.Proof.Gen.Pre_finite_inputs
import proofs.«132967_j26817775797032_1_alg».proof.Proof.RefRun
import proofs.«132967_j26817775797032_1_alg».proof.Proof.RefRead
import proofs.«132967_j26817775797032_1_alg».proof.Proof.KernelRun
import proofs.«132967_j26817775797032_1_alg».proof.Proof.Layers
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does the kernel program read at the ideal values. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- At the ideal values both programs end with the reference's last stage of the launched arguments. -/
theorem algebraic : Cert.algebraic_KernelIdeal_ReferenceIdeal := by
  intro m ρ m' ρ' _ hagree
  refine ⟨fun c => Cert.ReferenceIdeal.ReadP.val_main_v84 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Layers.result_eq m ρ c), (h c).2⟩)
      (Cert.KernelIdeal.GenRun.run_main (F := Ideal) m ρ)
  · refine (θ_run Cert.ReferenceIdeal.defs _ _).mono (fun r h c => ⟨?_, (h c).2⟩) (Cert.ReferenceIdeal.ValueP.run (F := Ideal) m' ρ')
    obtain ⟨e0, e1, e2, e3, e4, e5, e6, e7⟩ := hagree c
    rw [(h c).1, Cert.ReferenceIdeal.ReadP.val_main_v84_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
